-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x64 : Shape := ⟨2, ![2000000, 64]⟩
abbrev S2000000 : Shape := ⟨1, ![2000000]⟩
abbrev S_ : Shape := ⟨0, ![]⟩

class Facts : Prop where
  bcast_S_S2000000x64 : S_.BroadcastsInDim S2000000x64 (![] : Fin 0 → Fin S2000000x64.rank)
  reducesTo_S2000000x64_S_d0_1 : S2000000x64.ReducesTo [0, 1] S_
  h_S_ : 0 < S_.numel

variable [Facts]

def fn {F : FTy → Type} [FloatOps F] (main_arg0 : FVec F S2000000x64 .f32) (main_arg1 : IVec S2000000 32) : IVec S_ 1 :=
  let main_v0 : FVec F S2000000x64 .f32 := Host.absf main_arg0
  let main_cst : FVec F S_ .f32 := constant S_ .f32 0x7F800000#32
  let main_v1 : FVec F S2000000x64 .f32 := broadcastInDim S2000000x64 ![] bcast_S_S2000000x64 main_cst
  let main_v2 : IVec S2000000x64 1 := cmpf .olt main_v0 main_v1
  let main_c : IVec S_ 1 := constantI S_ 1 1#1
  let main_v3 : IVec S_ 1 := (fun x v => Host.reduce IntOp.andi x v reducesTo_S2000000x64_S_d0_1 h_S_) main_v2 main_c
  main_v3
-- ==== Kernel.lean ====
abbrev S2000000x64 : Shape := ⟨2, ![2000000, 64]⟩
abbrev S2000000 : Shape := ⟨1, ![2000000]⟩
abbrev S2000000x1 : Shape := ⟨2, ![2000000, 1]⟩
abbrev S16x64 : Shape := ⟨2, ![16, 64]⟩
abbrev S1x16 : Shape := ⟨2, ![1, 16]⟩
abbrev S10000x64 : Shape := ⟨2, ![10000, 64]⟩
abbrev S10000x1 : Shape := ⟨2, ![10000, 1]⟩
abbrev S10000 : Shape := ⟨1, ![10000]⟩
abbrev S10000x16 : Shape := ⟨2, ![10000, 16]⟩
abbrev S16 : Shape := ⟨1, ![16]⟩
abbrev S16x1 : Shape := ⟨2, ![16, 1]⟩
abbrev S64x16 : Shape := ⟨2, ![64, 16]⟩
abbrev S16x16 : Shape := ⟨2, ![16, 16]⟩
abbrev S_ : Shape := ⟨0, ![]⟩

abbrev nBuf : Space → Nat
  | .hbm => 31
  | .vmem => 6
  | .smem => 0
  | _ => 0

abbrev bufTy : (tb : Table) → Fin (tcTables nBuf tb) → BufTy
  | .hbm, ⟨0, _⟩ => ⟨S2000000x64, .f32⟩
  | .hbm, ⟨1, _⟩ => ⟨S2000000, .i32⟩
  | .hbm, ⟨2, _⟩ => ⟨S2000000x1, .i32⟩
  | .hbm, ⟨3, _⟩ => ⟨S16x64, .f32⟩
  | .hbm, ⟨4, _⟩ => ⟨S1x16, .f32⟩
  | .hbm, ⟨5, _⟩ => ⟨S16, .f32⟩
  | .hbm, ⟨6, _⟩ => ⟨S16x1, .f32⟩
  | .hbm, ⟨7, _⟩ => ⟨S16x64, .f32⟩
  | .hbm, ⟨8, _⟩ => ⟨S16x64, .f32⟩
  | .hbm, ⟨9, _⟩ => ⟨S64x16, .f32⟩
  | .hbm, ⟨10, _⟩ => ⟨S16x16, .f32⟩
  | .hbm, ⟨11, _⟩ => ⟨S_, .f32⟩
  | .hbm, ⟨12, _⟩ => ⟨S16x16, .f32⟩
  | .hbm, ⟨13, _⟩ => ⟨S16x16, .f32⟩
  | .hbm, ⟨14, _⟩ => ⟨S_, .f32⟩
  | .hbm, ⟨15, _⟩ => ⟨S16x16, .f32⟩
  | .hbm, ⟨16, _⟩ => ⟨S16x16, .f32⟩
  | .hbm, ⟨17, _⟩ => ⟨S_, .f32⟩
  | .hbm, ⟨18, _⟩ => ⟨S16x16, .f32⟩
  | .hbm, ⟨19, _⟩ => ⟨S16x16, .f32⟩
  | .hbm, ⟨20, _⟩ => ⟨S16x16, .i32⟩
  | .hbm, ⟨21, _⟩ => ⟨S16x16, .i32⟩
  | .hbm, ⟨22, _⟩ => ⟨S_, .i32⟩
  | .hbm, ⟨23, _⟩ => ⟨S16x16, .i32⟩
  | .hbm, ⟨24, _⟩ => ⟨S16x16, .i32⟩
  | .hbm, ⟨25, _⟩ => ⟨S16x16, .i1⟩
  | .hbm, ⟨26, _⟩ => ⟨S16x16, .f32⟩
  | .hbm, ⟨27, _⟩ => ⟨S_, .f32⟩
  | .hbm, ⟨28, _⟩ => ⟨S16x16, .f32⟩
  | .hbm, ⟨29, _⟩ => ⟨S16x16, .f32⟩
  | .hbm, ⟨30, _⟩ => ⟨S16x16, .f32⟩
  | .local _ .vmem, ⟨0, _⟩ => ⟨S10000x64, .f32⟩
  | .local _ .vmem, ⟨1, _⟩ => ⟨S10000x64, .f32⟩
  | .local _ .vmem, ⟨2, _⟩ => ⟨S10000x1, .i32⟩
  | .local _ .vmem, ⟨3, _⟩ => ⟨S10000x1, .i32⟩
  | .local _ .vmem, ⟨4, _⟩ => ⟨S16x64, .f32⟩
  | .local _ .vmem, ⟨5, _⟩ => ⟨S1x16, .f32⟩
  | _, _ => ⟨S2000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S2000000_S2000000x1 : S2000000.ShapeCasts S2000000x1
  inb_S16x64_S16x64_0_0 : ∀ a, (![0, 0] : Fin 2 → Nat) a + S16x64.size a ≤ S16x64.size a
  h_S16x64 : 0 < S16x64.numel
  inb_S1x16_S1x16_0_0 : ∀ a, (![0, 0] : Fin 2 → Nat) a + S1x16.size a ≤ S1x16.size a
  h_S1x16 : 0 < S1x16.numel
  inb_S10000x64_S10000x64_0_0 : ∀ a, (![0, 0] : Fin 2 → Nat) a + S10000x64.size a ≤ S10000x64.size a
  h_S10000x64 : 0 < S10000x64.numel
  reduces_S10000x64_S10000 : S10000x64.Reduces [1] S10000
  shapeCasts_S10000_S10000x1 : S10000.ShapeCasts S10000x1
  broadcasts_S10000x1_S10000x64 : S10000x1.Broadcasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  iota_S10000x16_d1_w32 : S10000x16.Iotas .tc 32 [1]
  broadcasts_S10000x1_S10000x16 : S10000x1.Broadcasts S10000x16
  natLt_1_32 : 1 < 32
  bitsLt_bf16_f32 : FTy.bits .bf16 < FTy.bits .f32
  reduces_S10000x16_S16 : S10000x16.Reduces [0] S16
  shapeCasts_S16_S1x16 : S16.ShapeCasts S1x16
  shapeCasts_S16x64_S16x64 : S16x64.ShapeCasts S16x64
  shapeCasts_S1x16_S1x16 : S1x16.ShapeCasts S1x16
  shapeCasts_S1x16_S16 : S1x16.ShapeCasts S16
  bcast_S16_S16x1_0 : S16.BroadcastsInDim S16x1 (![0] : Fin 1 → Fin S16x1.rank)
  bcast_S16x1_S16x64_0_1 : S16x1.BroadcastsInDim S16x64 (![0, 1] : Fin 2 → Fin S16x64.rank)
  transposes_S16x64_S64x16_1_0 : S16x64.Transposes [1, 0] S64x16
  bcast_S_S16x16 : S_.BroadcastsInDim S16x16 (![] : Fin 0 → Fin S16x16.rank)
  dot_S10000x16_S10000x64_S16x64_0_0_1_1_n_n_wf : DotDims.WF S10000x16 S10000x64 S16x64 [0] [0] [1] [1] [] []
  dot_S16x64_S64x16_S16x16_1_0_0_1_n_n_wf : DotDims.WF S16x64 S64x16 S16x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S2000000x64.size a
  hwx0_0 : ∀ i : grid0.Coords, EltTy.bits .f32 = 32 ∨ (Rect.block (s := S2000000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S2000000x1.size a
  hwx0_1 : ∀ i : grid0.Coords, EltTy.bits .i32 = 32 ∨ (Rect.block (s := S2000000x1) S10000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x64.size a ≤ S16x64.size a
  hwx0_2 : ∀ i : grid0.Coords, EltTy.bits .f32 = 32 ∨ (Rect.block (s := S16x64) S16x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)

variable [Facts₀]

def dot_S10000x16_S10000x64_S16x64_0_0_1_1_n_n : DotDims S10000x16 S10000x64 S16x64 where
  lhsContracting := [0]
  rhsContracting := [0]
  lhsNonContracting := [1]
  rhsNonContracting := [1]
  lhsBatch := []
  rhsBatch := []
  wf := dot_S10000x16_S10000x64_S16x64_0_0_1_1_n_n_wf
def dot_S16x64_S64x16_S16x16_1_0_0_1_n_n : DotDims S16x64 S64x16 S16x16 where
  lhsContracting := [1]
  rhsContracting := [0]
  lhsNonContracting := [0]
  rhsNonContracting := [1]
  lhsBatch := []
  rhsBatch := []
  wf := dot_S16x64_S64x16_S16x16_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S16x64.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x16.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2000000x64 : Shape := ⟨2, ![2000000, 64]⟩
abbrev S2000000 : Shape := ⟨1, ![2000000]⟩
abbrev S_ : Shape := ⟨0, ![]⟩
abbrev S2000000x1 : Shape := ⟨2, ![2000000, 1]⟩
abbrev S16x64 : Shape := ⟨2, ![16, 64]⟩
abbrev S16 : Shape := ⟨1, ![16]⟩
abbrev S16x1 : Shape := ⟨2, ![16, 1]⟩
abbrev S64x16 : Shape := ⟨2, ![64, 16]⟩
abbrev S16x16 : Shape := ⟨2, ![16, 16]⟩

abbrev nBuf : Space → Nat
  | .hbm => 47
  | .vmem => 0
  | .smem => 0
  | _ => 0

abbrev bufTy : (tb : Table) → Fin (tcTables nBuf tb) → BufTy
  | .hbm, ⟨0, _⟩ => ⟨S2000000x64, .f32⟩
  | .hbm, ⟨1, _⟩ => ⟨S2000000, .i32⟩
  | .hbm, ⟨2, _⟩ => ⟨S2000000x64, .f32⟩
  | .hbm, ⟨3, _⟩ => ⟨S_, .f32⟩
  | .hbm, ⟨4, _⟩ => ⟨S2000000, .f32⟩
  | .hbm, ⟨5, _⟩ => ⟨S2000000x1, .f32⟩
  | .hbm, ⟨6, _⟩ => ⟨S2000000x1, .f32⟩
  | .hbm, ⟨7, _⟩ => ⟨S_, .f32⟩
  | .hbm, ⟨8, _⟩ => ⟨S2000000x1, .f32⟩
  | .hbm, ⟨9, _⟩ => ⟨S2000000x1, .f32⟩
  | .hbm, ⟨10, _⟩ => ⟨S2000000x64, .f32⟩
  | .hbm, ⟨11, _⟩ => ⟨S2000000x64, .f32⟩
  | .hbm, ⟨12, _⟩ => ⟨S_, .f32⟩
  | .hbm, ⟨13, _⟩ => ⟨S16x64, .f32⟩
  | .hbm, ⟨14, _⟩ => ⟨S2000000x1, .i32⟩
  | .hbm, ⟨15, _⟩ => ⟨S16x64, .f32⟩
  | .hbm, ⟨16, _⟩ => ⟨S_, .f32⟩
  | .hbm, ⟨17, _⟩ => ⟨S2000000, .f32⟩
  | .hbm, ⟨18, _⟩ => ⟨S_, .f32⟩
  | .hbm, ⟨19, _⟩ => ⟨S16, .f32⟩
  | .hbm, ⟨20, _⟩ => ⟨S2000000x1, .i32⟩
  | .hbm, ⟨21, _⟩ => ⟨S16, .f32⟩
  | .hbm, ⟨22, _⟩ => ⟨S16x1, .f32⟩
  | .hbm, ⟨23, _⟩ => ⟨S16x64, .f32⟩
  | .hbm, ⟨24, _⟩ => ⟨S16x64, .f32⟩
  | .hbm, ⟨25, _⟩ => ⟨S64x16, .f32⟩
  | .hbm, ⟨26, _⟩ => ⟨S16x16, .f32⟩
  | .hbm, ⟨27, _⟩ => ⟨S_, .f32⟩
  | .hbm, ⟨28, _⟩ => ⟨S16x16, .f32⟩
  | .hbm, ⟨29, _⟩ => ⟨S16x16, .f32⟩
  | .hbm, ⟨30, _⟩ => ⟨S_, .f32⟩
  | .hbm, ⟨31, _⟩ => ⟨S16x16, .f32⟩
  | .hbm, ⟨32, _⟩ => ⟨S16x16, .f32⟩
  | .hbm, ⟨33, _⟩ => ⟨S_, .f32⟩
  | .hbm, ⟨34, _⟩ => ⟨S16x16, .f32⟩
  | .hbm, ⟨35, _⟩ => ⟨S16x16, .f32⟩
  | .hbm, ⟨36, _⟩ => ⟨S16x16, .i32⟩
  | .hbm, ⟨37, _⟩ => ⟨S16x16, .i32⟩
  | .hbm, ⟨38, _⟩ => ⟨S_, .i32⟩
  | .hbm, ⟨39, _⟩ => ⟨S16x16, .i32⟩
  | .hbm, ⟨40, _⟩ => ⟨S16x16, .i32⟩
  | .hbm, ⟨41, _⟩ => ⟨S16x16, .i1⟩
  | .hbm, ⟨42, _⟩ => ⟨S16x16, .f32⟩
  | .hbm, ⟨43, _⟩ => ⟨S_, .f32⟩
  | .hbm, ⟨44, _⟩ => ⟨S16x16, .f32⟩
  | .hbm, ⟨45, _⟩ => ⟨S16x16, .f32⟩
  | .hbm, ⟨46, _⟩ => ⟨S16x16, .f32⟩
  | _, _ => ⟨S2000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]

class Facts₀ : Prop where
  reducesTo_S2000000x64_S2000000_d1 : S2000000x64.ReducesTo [1] S2000000
  h_S_ : 0 < S_.numel
  bcast_S2000000_S2000000x1_0 : S2000000.BroadcastsInDim S2000000x1 (![0] : Fin 1 → Fin S2000000x1.rank)
  bcast_S_S2000000x1 : S_.BroadcastsInDim S2000000x1 (![] : Fin 0 → Fin S2000000x1.rank)
  bcast_S2000000x1_S2000000x64_0_1 : S2000000x1.BroadcastsInDim S2000000x64 (![0, 1] : Fin 2 → Fin S2000000x64.rank)
  bcast_S_S16x64 : S_.BroadcastsInDim S16x64 (![] : Fin 0 → Fin S16x64.rank)
  bcast_S_S2000000 : S_.BroadcastsInDim S2000000 (![] : Fin 0 → Fin S2000000.rank)
  bcast_S_S16 : S_.BroadcastsInDim S16 (![] : Fin 0 → Fin S16.rank)
  bcast_S16_S16x1_0 : S16.BroadcastsInDim S16x1 (![0] : Fin 1 → Fin S16x1.rank)
  bcast_S16x1_S16x64_0_1 : S16x1.BroadcastsInDim S16x64 (![0, 1] : Fin 2 → Fin S16x64.rank)
  transposes_S16x64_S64x16_1_0 : S16x64.Transposes [1, 0] S64x16
  bcast_S_S16x16 : S_.BroadcastsInDim S16x16 (![] : Fin 0 → Fin S16x16.rank)
  scatter_S16x64_S2000000x1_S2000000x64_1_0_0_1_wf : ScatterDims.WF S16x64 S2000000x1 S2000000x64 [1] [0] [0] 1
  scatter_S16_S2000000x1_S2000000_n_0_0_1_wf : ScatterDims.WF S16 S2000000x1 S2000000 [] [0] [0] 1
  dot_S16x64_S64x16_S16x16_1_0_0_1_n_n_wf : DotDims.WF S16x64 S64x16 S16x16 [1] [0] [0] [1] [] []

variable [Facts₀]

def scatter_S16x64_S2000000x1_S2000000x64_1_0_0_1 : ScatterDims S16x64 S2000000x1 S2000000x64 where
  updateWindowDims := [1]
  insertedWindowDims := [0]
  scatterDimsToOperandDims := [0]
  indexVectorDim := 1
  wf := scatter_S16x64_S2000000x1_S2000000x64_1_0_0_1_wf
def scatter_S16_S2000000x1_S2000000_n_0_0_1 : ScatterDims S16 S2000000x1 S2000000 where
  updateWindowDims := []
  insertedWindowDims := [0]
  scatterDimsToOperandDims := [0]
  indexVectorDim := 1
  wf := scatter_S16_S2000000x1_S2000000_n_0_0_1_wf
def dot_S16x64_S64x16_S16x16_1_0_0_1_n_n : DotDims S16x64 S64x16 S16x16 where
  lhsContracting := [1]
  rhsContracting := [0]
  lhsNonContracting := [0]
  rhsNonContracting := [1]
  lhsBatch := []
  rhsBatch := []
  wf := dot_S16x64_S64x16_S16x16_1_0_0_1_n_n_wf

class Facts : Prop extends Facts₀ where

variable [Facts]
-- ==== Proof.Pieces.lean ====
/-
  What one pass of the body leaves in the two accumulators.

  At the first grid point the body clears both accumulators, reads the cleared values back and adds the block's
  contribution; at every later point it adds the contribution to what the point before left. Each accumulator is
  stored whole, so what it holds afterwards is the last store's value.
-/
import proofs.«402068_j42434276885043_2_alg».proof.Proof.Gen.KernelIdeal.Frame
import Idealize.ShloMosaic.Lib.Pipeline.Value
import Idealize.ShloMosaic.Lib.Tactic

noncomputable section

namespace Cert.KernelIdeal.Body

open Idealize.ShloMosaic Idealize.ShloMosaic.TcCoe Idealize.SL.Sem Idealize.ShloMosaic.Tactic
open Cert.KernelIdeal Cert.KernelIdeal.Gen

variable {F : FTy → Type} [FloatOps F]

theorem origin2 : (![0, 0] : Fin 2 → Nat) = fun _ => 0 := funext fun a => by fin_cases a <;> rfl

/-- Later points: the sums accumulator ends at the stored sums over what it held. -/
theorem sums_later (c : Dev nD) (i : grid0.Coords) (a1 : Memref sig .tc .vmem S10000x64 .f32) (h1 : a1.IsWhole)
    (a2 : Memref sig .tc .vmem S10000x1 .i32) (h2 : a2.IsWhole) (a3 : Memref sig .tc .vmem S16x64 .f32) (h3 : a3.IsWhole)
    (a4 : Memref sig .tc .vmem S1x16 .f32) (h4 : a4.IsWhole) (hc : ¬cond0_0 i)
    (x : Vec F S10000x64 .f32) (g : Vec F S10000x1 .i32) (acc2 : Vec F S16x64 .f32) (acc3 : Vec F S1x16 .f32) :
    out0_B_2 c i a1 h1 a2 h2 a3 h3 a4 h4 hc x g acc2 acc3 = k0_pay4 x g acc2 := by
  unfold out0_B_2
  rw [View.read_writes_eq_canon _ _ _ (cover0_B_2 c i a1 h1 a2 h2 a3 h3 a4 h4 hc x g acc2 acc3)]
  unfold kernelRun0_B
  dsimp only
  sl_unfold_words
  rw [View.canon_unit_zero origin2]
  simp only [View.readAt_eq_ld, h1.read_unread, h2.read_unread, h3.read_unread,
    View.ld_unit_zero (S := S10000x64) origin2, View.ld_unit_zero (S := S10000x1) origin2,
    View.ld_unit_zero (S := S16x64) origin2]

/-- Later points: the counts accumulator ends at the stored counts over what it held. -/
theorem counts_later (c : Dev nD) (i : grid0.Coords) (a1 : Memref sig .tc .vmem S10000x64 .f32) (h1 : a1.IsWhole)
    (a2 : Memref sig .tc .vmem S10000x1 .i32) (h2 : a2.IsWhole) (a3 : Memref sig .tc .vmem S16x64 .f32) (h3 : a3.IsWhole)
    (a4 : Memref sig .tc .vmem S1x16 .f32) (h4 : a4.IsWhole) (hc : ¬cond0_0 i)
    (x : Vec F S10000x64 .f32) (g : Vec F S10000x1 .i32) (acc2 : Vec F S16x64 .f32) (acc3 : Vec F S1x16 .f32) :
    out0_B_3 c i a1 h1 a2 h2 a3 h3 a4 h4 hc x g acc2 acc3 = k0_pay5 g acc3 := by
  unfold out0_B_3
  rw [View.read_writes_eq_canon _ _ _ (cover0_B_3 c i a1 h1 a2 h2 a3 h3 a4 h4 hc x g acc2 acc3)]
  unfold kernelRun0_B
  dsimp only
  sl_unfold_words
  rw [View.canon_unit_zero origin2]
  simp only [View.readAt_eq_ld, h2.read_unread, h4.read_unread,
    View.ld_unit_zero (S := S10000x1) origin2, View.ld_unit_zero (S := S1x16) origin2]

/-- First point: the sums accumulator ends at the stored sums over the zeros it was cleared to. -/
theorem sums_first (c : Dev nD) (i : grid0.Coords) (a1 : Memref sig .tc .vmem S10000x64 .f32) (h1 : a1.IsWhole)
    (a2 : Memref sig .tc .vmem S10000x1 .i32) (h2 : a2.IsWhole) (a3 : Memref sig .tc .vmem S16x64 .f32) (h3 : a3.IsWhole)
    (a4 : Memref sig .tc .vmem S1x16 .f32) (h4 : a4.IsWhole) (hc : cond0_0 i)
    (x : Vec F S10000x64 .f32) (g : Vec F S10000x1 .i32) :
    out0_A_2 c i a1 h1 a2 h2 a3 h3 a4 h4 hc x g = k0_pay4 x g (k0_pay1 (F := F)) := by
  unfold out0_A_2
  rw [View.read_writes_eq_canon _ _ _ (cover0_A_2 c i a1 h1 a2 h2 a3 h3 a4 h4 hc x g)]
  unfold kernelRun0_A
  dsimp only
  sl_unfold_words
  rw [View.canon_cons_unit_zero (S := S16x64) origin2, View.readCov_unit_zero (S := S16x64) _ origin2]
  simp only [View.readAt_eq_ld, h1.read_unread, h2.read_unread,
    View.ld_unit_zero (S := S10000x64) origin2, View.ld_unit_zero (S := S10000x1) origin2,
    View.ld_unit_zero (S := S16x64) origin2]

/-- First point: the counts accumulator ends at the stored counts over the zeros it was cleared to. -/
theorem counts_first (c : Dev nD) (i : grid0.Coords) (a1 : Memref sig .tc .vmem S10000x64 .f32) (h1 : a1.IsWhole)
    (a2 : Memref sig .tc .vmem S10000x1 .i32) (h2 : a2.IsWhole) (a3 : Memref sig .tc .vmem S16x64 .f32) (h3 : a3.IsWhole)
    (a4 : Memref sig .tc .vmem S1x16 .f32) (h4 : a4.IsWhole) (hc : cond0_0 i)
    (x : Vec F S10000x64 .f32) (g : Vec F S10000x1 .i32) :
    out0_A_3 c i a1 h1 a2 h2 a3 h3 a4 h4 hc x g = k0_pay5 g (k0_pay2 (F := F)) := by
  unfold out0_A_3
  rw [View.read_writes_eq_canon _ _ _ (cover0_A_3 c i a1 h1 a2 h2 a3 h3 a4 h4 hc x g)]
  unfold kernelRun0_A
  dsimp only
  sl_unfold_words
  rw [View.canon_cons_unit_zero (S := S1x16) origin2, View.readCov_unit_zero (S := S1x16) _ origin2]
  simp only [View.readAt_eq_ld, h2.read_unread,
    View.ld_unit_zero (S := S10000x1) origin2, View.ld_unit_zero (S := S1x16) origin2]

end Cert.KernelIdeal.Body

end
-- ==== Proof.Spec.lean ====
/-
  The quantities both programs compute, over plain functions of row and column numbers.

  A row `v` of 64 extended reals has the floored length `max (sqrt (∑ₖ vₖ²)) ε`, where `ε` is the one
  32-bit word both programs write for the floor; its unit entry `d` is `v_d` divided by that length.
  A row's group word `w` selects group `s` with weight `1` when `w` is the 32-bit word of `s` and `0`
  otherwise, so a word that is no group number (negative as a signed number, or sixteen and above) selects
  nothing. The group sum of column `d` adds the selected rows' unit entries; the group count adds the weights.
-/
import Idealize.ShloMosaic.PureOps.Ideal

noncomputable section

namespace Cert.Ortho

open Idealize.ShloMosaic

/-- The floor of a row's length: the word both programs write (about 1e-12). -/
def lenFloor : EReal := Ideal.ofBits .f32 0x2B8CBCCC#32

/-- A row's length, floored: `max (sqrt (∑ₖ vₖ · vₖ)) ε`. -/
def rowLen (v : Fin 64 → EReal) : EReal := max (Ideal.sqrt (∑ k : Fin 64, v k * v k)) lenFloor

/-- Entry `d` of the row scaled to unit length. -/
def unitEntry (v : Fin 64 → EReal) (d : Fin 64) : EReal := Ideal.div (v d) (rowLen v)

/-- The weight with which a row whose group word is `w` counts for group `s`. -/
def hot (w : BitVec 32) (s : Fin 16) : EReal := if w = BitVec.ofNat 32 s.val then 1 else 0

/-- Column `d` of group `s`'s sum over `N` rows `x` with group words `g`. -/
def segSum {N : ℕ} (x : Fin N → Fin 64 → EReal) (g : Fin N → BitVec 32) (s : Fin 16) (d : Fin 64) : EReal :=
  ∑ R : Fin N, hot (g R) s * unitEntry (x R) d

/-- How many of the `N` rows belong to group `s`. -/
def segCount {N : ℕ} (g : Fin N → BitVec 32) (s : Fin 16) : EReal := ∑ R : Fin N, hot (g R) s

/-- Row `r` of the `t`-th block of ten thousand rows, as a row of the whole array. -/
def tileRow (t : Fin 200) (r : Fin 10000) : Fin 2000000 :=
  ⟨10000 * t.val + r.val, by have := t.isLt; have := r.isLt; omega⟩

end Cert.Ortho

end
-- ==== Proof.LibRowCasts.lean ====
/-
  Four layout operations read at an index.

  * A rank-3 array `[a, b, c]` cast to `[n, c]` with `n = a · b` merges its two leading axes: row
    `p · b + q` of the matrix is row `(p, q)` of the array; and the cast back splits them.
  * A vector `[a]` cast to the column `[a, 1]` (what a sum with kept dimensions produces).
  * A column `[a, 1]` broadcast to `[a, b]`: every lane of row `i` is the column's entry `i`.
-/
import Idealize.ShloMosaic.Lib.Pipeline.Value
import Idealize.ShloMosaic.Lib.ValueIdx

namespace Idealize.ShloMosaic.RowCasts

open Idealize.ShloMosaic Idealize.ShloMosaic.ValueIdx

variable {α : Type}

/-- `[a, b, c]` cast to `[n, c]`, read at row `r = p · b + q` and lane `d`: the array at `(p, q, d)`. -/
theorem shapeCast_merge_apply {a b c n : ℕ} (x : (⟨3, ![a, b, c]⟩ : Shape).Idx → α)
    (h : (⟨3, ![a, b, c]⟩ : Shape).ShapeCasts ⟨2, ![n, c]⟩) (p : Fin a) (q : Fin b) (d : Fin c) (r : Fin n)
    (hr : r.val = p.val * b + q.val) :
    shapeCast ⟨2, ![n, c]⟩ x h (ix2 r d) = x (ix3 p q d) :=
  shapeCast_apply x h _ _ (by
    rw [Shape.rowMajor_val_three, Shape.rowMajor_val_two]
    show (p.val * b + q.val) * c + d.val = r.val * c + d.val
    rw [hr])

/-- `[n, c]` cast to `[a, b, c]`, read at `(p, q, d)`: the matrix at row `r = p · b + q`, lane `d`. -/
theorem shapeCast_split_apply {a b c n : ℕ} (y : (⟨2, ![n, c]⟩ : Shape).Idx → α)
    (h : (⟨2, ![n, c]⟩ : Shape).ShapeCasts ⟨3, ![a, b, c]⟩) (p : Fin a) (q : Fin b) (d : Fin c) (r : Fin n)
    (hr : r.val = p.val * b + q.val) :
    shapeCast ⟨3, ![a, b, c]⟩ y h (ix3 p q d) = y (ix2 r d) :=
  shapeCast_apply y h _ _ (by
    rw [Shape.rowMajor_val_three, Shape.rowMajor_val_two]
    show r.val * c + d.val = (p.val * b + q.val) * c + d.val
    rw [hr])

/-- A vector cast to a column reads, at `(i, u)`, the vector at `i`. -/
theorem shapeCast_column_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    rw [Shape.rowMajor_val_one, Shape.rowMajor_val_two]
    show i.val = i.val * 1 + u.val
    have := u.isLt
    omega)

/-- A column broadcast over the lanes reads, at `(i, j)`, the column at `(i, 0)`. -/
theorem broadcastTo_column_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.RowCasts
-- ==== Proof.Payload.lean ====
/-
  What the kernel's body stores, read at an index over the extended reals.

  From a block `x` of ten thousand rows, their group words `g` (a column) and the running sums `acc`, the body
  stores `acc + Wᵀ · X̂`: `X̂` is `x` with every row scaled to unit length (its length floored) and `W` the
  10000 × 16 matrix of weights, entry `(r, s)` being `1` when row `r`'s word is the word of `s`. The matrix
  product contracts the rows, and narrowing the operands to a shorter float format changes nothing here. Entry
  `(s, d)` is therefore `acc (s, d)` plus group `s`'s sum of column `d` over the block; and the stored counts are
  the running counts plus the column sums of `W`.
-/
import proofs.«402068_j42434276885043_2_alg».proof.Proof.Gen.KernelIdeal.Skeleton
import proofs.«402068_j42434276885043_2_alg».proof.Proof.Spec
import proofs.«402068_j42434276885043_2_alg».proof.Proof.LibRowCasts
import Idealize.ShloMosaic.Lib.Pipeline.Value
import Idealize.ShloMosaic.Lib.ValueIdx
import Idealize.ShloMosaic.PureOps.Ideal.Laws

noncomputable section

namespace Cert.KernelIdeal.Body

open Idealize.ShloMosaic Idealize.ShloMosaic.ValueIdx Cert.KernelIdeal Cert.KernelIdeal.Gen Cert.KernelIdeal.Facts₀

variable [Cert.KernelIdeal.Facts]

/-! ## One lemma per operation that is not pointwise -/

/-- The sum over a row's lanes. -/
private theorem laneSum_apply (v : FVec Ideal S10000x64 .f32) (h : S10000x64.Reduces [1] S10000)
    (hφ : FKind.Formats .f32) (hacc : (0x00000000#32 : BitVec 32) = FKind.add.neutral .f32 hφ) (r : Fin 10000) :
    multiReduction .add [1] S10000 v 0x00000000#32 h hφ hacc (ix1 r) = ∑ k : Fin 64, v (ix2 r k) := by
  refine (Ideal.multiReduction_add_single v 0x00000000#32 h hφ hacc (ix1 r)).trans ?_
  refine Finset.sum_congr rfl fun k _ => congrArg v ?_
  funext a
  match a with
  | ⟨0, _⟩ => exact Fin.ext rfl
  | ⟨1, _⟩ => exact Fin.ext rfl

/-- The sum down a column. -/
private theorem colSum_apply (v : FVec Ideal S10000x16 .f32) (h : S10000x16.Reduces [0] S16)
    (hφ : FKind.Formats .f32) (hacc : (0x00000000#32 : BitVec 32) = FKind.add.neutral .f32 hφ) (s : Fin 16) :
    multiReduction .add [0] S16 v 0x00000000#32 h hφ hacc (ix1 s) = ∑ r : Fin 10000, v (ix2 r s) := by
  refine (Ideal.multiReduction_add_single v 0x00000000#32 h hφ hacc (ix1 s)).trans ?_
  refine Finset.sum_congr rfl fun k _ => congrArg v ?_
  funext a
  match a with
  | ⟨0, _⟩ => exact Fin.ext rfl
  | ⟨1, _⟩ => exact Fin.ext rfl

/-- The lane counter reads the lane's number. -/
private theorem laneIota_apply (h : S10000x16.Iotas .tc 32 [1]) (r : Fin 10000) (s : Fin 16) :
    iota .tc S10000x16 32 [1] h (ix2 r s) = BitVec.ofNat 32 s.val :=
  iota_single_apply .tc S10000x16 32 1 h (ix2 r s)

/-- A vector cast to a one-row matrix reads, at `(0, s)`, the vector at `s`. -/
private theorem shapeCast_row_apply {α : Type} (v : S16.Idx → α) (h : S16.ShapeCasts S1x16) (s : Fin 16) :
    shapeCast S1x16 v h (ix2 (0 : Fin 1) s) = v (ix1 s) :=
  shapeCast_apply v h _ _ (by
    rw [Shape.rowMajor_val_one, Shape.rowMajor_val_two]
    show s.val = 0 * 16 + s.val
    omega)

/-- The weight of a row for a group: the comparison's bit, widened and read as a signed number, is `1` when the
    row's word is the group's and `0` otherwise. -/
private theorem weight_eq_hot (w : BitVec 32) (s : Fin 16) :
    FloatOps.sitofp (F := Ideal) .f32 ((IntOp.cmpi .eq w (BitVec.ofNat 32 s.val)).setWidth 32) = Cert.Ortho.hot w s := by
  show ((((IntOp.cmpi .eq w (BitVec.ofNat 32 s.val)).setWidth 32).toInt : ℝ) : EReal) = Cert.Ortho.hot w s
  unfold Cert.Ortho.hot
  by_cases h : w = BitVec.ofNat 32 s.val
  · have e : IntOp.cmpi .eq w (BitVec.ofNat 32 s.val) = 1#1 := by
      show BitVec.ofBool (w == BitVec.ofNat 32 s.val) = 1#1
      rw [beq_iff_eq.mpr h]; rfl
    have t : ((1#1 : BitVec 1).setWidth 32).toInt = 1 := by decide
    rw [if_pos h, e, t]
    simp
  · have e : IntOp.cmpi .eq w (BitVec.ofNat 32 s.val) = 0#1 := by
      show BitVec.ofBool (w == BitVec.ofNat 32 s.val) = 0#1
      rw [beq_eq_false_iff_ne.mpr h]; rfl
    have t : ((0#1 : BitVec 1).setWidth 32).toInt = 0 := by decide
    rw [if_neg h, e, t]
    simp

/-! ## The matrix product, contracted over the rows -/

/-- The contraction runs over the rows of both operands: the left operand's index at output `j` and contraction
    position `q` has `q`'s coordinate on axis 0 and `j`'s first coordinate on axis 1 … -/
private theorem dotLhs_0 (j : S16x64.Idx) (q : dot_S10000x16_S10000x64_S16x64_0_0_1_1_n_n.contr.Idx) :
    (dot_S10000x16_S10000x64_S16x64_0_0_1_1_n_n.lhsIdx j q 0).val = (q ⟨0, by decide⟩).val :=
  dot_S10000x16_S10000x64_S16x64_0_0_1_1_n_n.lhsIdx_val_of_single rfl j q
private theorem dotLhs_1 (j : S16x64.Idx) (q : dot_S10000x16_S10000x64_S16x64_0_0_1_1_n_n.contr.Idx) :
    (dot_S10000x16_S10000x64_S16x64_0_0_1_1_n_n.lhsIdx j q 1).val = (j 0).val := by
  unfold DotDims.lhsIdx
  rw [dif_neg (show ¬(1 : Fin S10000x16.rank) ∈ dot_S10000x16_S10000x64_S16x64_0_0_1_1_n_n.lhsBatch by decide), dif_pos (show (1 : Fin S10000x16.rank) ∈ dot_S10000x16_S10000x64_S16x64_0_0_1_1_n_n.lhsNonContracting by decide)]
  rfl
/-- … and the right operand's has `q`'s coordinate on axis 0 and `j`'s second coordinate on axis 1. -/
private theorem dotRhs_0 (j : S16x64.Idx) (q : dot_S10000x16_S10000x64_S16x64_0_0_1_1_n_n.contr.Idx) :
    (dot_S10000x16_S10000x64_S16x64_0_0_1_1_n_n.rhsIdx j q 0).val = (q ⟨0, by decide⟩).val :=
  dot_S10000x16_S10000x64_S16x64_0_0_1_1_n_n.rhsIdx_val_of_single rfl j q
private theorem dotRhs_1 (j : S16x64.Idx) (q : dot_S10000x16_S10000x64_S16x64_0_0_1_1_n_n.contr.Idx) :
    (dot_S10000x16_S10000x64_S16x64_0_0_1_1_n_n.rhsIdx j q 1).val = (j 1).val := by
  unfold DotDims.rhsIdx
  rw [dif_neg (show ¬(1 : Fin S10000x64.rank) ∈ dot_S10000x16_S10000x64_S16x64_0_0_1_1_n_n.rhsBatch by decide), dif_pos (show (1 : Fin S10000x64.rank) ∈ dot_S10000x16_S10000x64_S16x64_0_0_1_1_n_n.rhsNonContracting by decide)]
  rfl

/-- The product into the zero accumulator, read at `(s, d)`: the sum over the rows of the two operands' entries. -/
private theorem rowsProduct_apply {φ₁ φ₂ : FTy} (W : FVec Ideal S10000x16 φ₁) (X : FVec Ideal S10000x64 φ₂) (s : Fin 16) (d : Fin 64) :
    matmul dot_S10000x16_S10000x64_S16x64_0_0_1_1_n_n none W X (constant S16x64 .f32 0x00000000#32) (ix2 s d)
      = ∑ r : Fin 10000, W (ix2 r s) * X (ix2 r d) := by
  refine (Ideal.matmul_constant_zero_apply dot_S10000x16_S10000x64_S16x64_0_0_1_1_n_n none W X (ix2 s d)).trans ?_
  rw [← Equiv.sum_comp (contrEquiv1 dot_S10000x16_S10000x64_S16x64_0_0_1_1_n_n 10000 rfl rfl).symm]
  refine Finset.sum_congr rfl fun k _ => ?_
  have hk := contrEquiv1_symm_val dot_S10000x16_S10000x64_S16x64_0_0_1_1_n_n 10000 rfl rfl k
  have el : dot_S10000x16_S10000x64_S16x64_0_0_1_1_n_n.lhsIdx (ix2 s d) ((contrEquiv1 dot_S10000x16_S10000x64_S16x64_0_0_1_1_n_n 10000 rfl rfl).symm k) = ix2 k s := funext fun a => Fin.ext (by
    match a with
    | ⟨0, _⟩ => exact (dotLhs_0 _ _).trans hk
    | ⟨1, _⟩ => exact dotLhs_1 _ _)
  have er : dot_S10000x16_S10000x64_S16x64_0_0_1_1_n_n.rhsIdx (ix2 s d) ((contrEquiv1 dot_S10000x16_S10000x64_S16x64_0_0_1_1_n_n 10000 rfl rfl).symm k) = ix2 k d := funext fun a => Fin.ext (by
    match a with
    | ⟨0, _⟩ => exact (dotRhs_0 _ _).trans hk
    | ⟨1, _⟩ => exact dotRhs_1 _ _)
  rw [el, er]

/-! ## The two operands of the product at an index -/

/-- The weight matrix at `(r, s)`: row `r`'s word compared with the lane's number, the bit widened and read as a
    signed number. -/
private theorem weight_apply (g : Vec Ideal S10000x1 .i32) (hw : 1 < 32) (r : Fin 10000) (s : Fin 16) :
    sitofp (F := Ideal) .f32 (extui 32 (k0_pay3 (F := Ideal) g) hw) (ix2 r s)
      = Cert.Ortho.hot (g (ix2 r (0 : Fin 1))) s := by
  unfold k0_pay3
  show FloatOps.sitofp (F := Ideal) .f32
      ((IntOp.cmpi .eq (broadcastTo S10000x16 (shapeCast S10000x1 g _) _ (ix2 r s)) (iota .tc S10000x16 32 [1] _ (ix2 r s))).setWidth 32) = _
  rw [RowCasts.broadcastTo_column_apply, shapeCast_self, laneIota_apply]
  exact weight_eq_hot _ _

/-- The scaled block at `(r, d)`: row `r`'s entry `d` over the row's floored length. -/
private theorem unit_apply (x : Vec Ideal S10000x64 .f32) (hr : S10000x64.Reduces [1] S10000)
    (hφ : FKind.Formats .f32) (hacc : (0x00000000#32 : BitVec 32) = FKind.add.neutral .f32 hφ)
    (hc : S10000.ShapeCasts S10000x1) (hb : S10000x1.Broadcasts S10000x64) (r : Fin 10000) (d : Fin 64) :
    divf (F := Ideal) x (broadcastTo S10000x64 (maximumf (sqrt (shapeCast S10000x1
        (multiReduction .add [1] S10000 (mulf x x) 0x00000000#32 hr hφ hacc) hc))
        (broadcast S10000x1 (Scalar.ofBits .f32 0x2B8CBCCC#32))) hb) (ix2 r d)
      = Cert.Ortho.unitEntry (fun k : Fin 64 => x (ix2 r k)) d := by
  show Ideal.div (x (ix2 r d)) (broadcastTo S10000x64 _ hb (ix2 r d)) = _
  rw [RowCasts.broadcastTo_column_apply]
  show Ideal.div (x (ix2 r d)) (max (Ideal.sqrt (shapeCast S10000x1 _ hc (ix2 r (0 : Fin 1)))) (Ideal.ofBits .f32 0x2B8CBCCC#32)) = _
  rw [RowCasts.shapeCast_column_apply, laneSum_apply]
  rfl

/-! ## The stored values -/

/-- The stored sums at `(s, d)`: the running sum there plus the block's group sum. -/
theorem sums_payload_apply (x : Vec Ideal S10000x64 .f32) (g : Vec Ideal S10000x1 .i32) (acc : Vec Ideal S16x64 .f32)
    (s : Fin 16) (d : Fin 64) :
    k0_pay4 (F := Ideal) x g acc (ix2 s d)
      = acc (ix2 s d) + Cert.Ortho.segSum (fun (r : Fin 10000) (k : Fin 64) => x (ix2 r k)) (fun r => g (ix2 r (0 : Fin 1))) s d := by
  unfold k0_pay4
  show shapeCast S16x64 acc _ (ix2 s d) + _ = _
  rw [shapeCast_self]
  refine congrArg (acc (ix2 s d) + ·) ?_
  refine (rowsProduct_apply _ _ s d).trans ?_
  unfold Cert.Ortho.segSum
  refine Finset.sum_congr rfl fun r _ => ?_
  -- narrowing either operand to the shorter format is the identity on extended reals
  show sitofp (F := Ideal) .f32 (extui 32 (k0_pay3 (F := Ideal) g) _) (ix2 r s) * divf (F := Ideal) x _ (ix2 r d) = _
  exact congrArg₂ (· * ·) (weight_apply g _ r s) (unit_apply x _ _ _ _ _ r d)

/-- The stored counts at `s`: the running count plus the block's group count. -/
theorem counts_payload_apply (g : Vec Ideal S10000x1 .i32) (acc : Vec Ideal S1x16 .f32) (s : Fin 16) :
    k0_pay5 (F := Ideal) g acc (ix2 (0 : Fin 1) s)
      = acc (ix2 (0 : Fin 1) s) + Cert.Ortho.segCount (fun (r : Fin 10000) => g (ix2 r (0 : Fin 1))) s := by
  unfold k0_pay5
  show shapeCast S1x16 acc _ (ix2 (0 : Fin 1) s) + shapeCast S1x16 _ _ (ix2 (0 : Fin 1) s) = _
  rw [shapeCast_self, shapeCast_row_apply]
  refine congrArg (acc (ix2 (0 : Fin 1) s) + ·) ?_
  refine (colSum_apply _ _ _ _ s).trans ?_
  unfold Cert.Ortho.segCount
  exact Finset.sum_congr rfl fun r _ => weight_apply g _ r s

/-- The reset stores zeros. -/
theorem zero_sums_apply (s : Fin 16) (d : Fin 64) : k0_pay1 (F := Ideal) (ix2 s d) = 0 := by
  exact Ideal.ofBits_zero_f32

theorem zero_counts_apply (s : Fin 16) : k0_pay2 (F := Ideal) (ix2 (0 : Fin 1) s) = 0 := by
  exact Ideal.ofBits_zero_f32

end Cert.KernelIdeal.Body

end
-- ==== Proof.SumTiles.lean ====
/-
  Finite sums over the two million rows, regrouped.

  The rows fall into two hundred consecutive blocks of ten thousand: row `10000·t + r` is row `r` of block `t`.
  Addition of extended reals is commutative and associative (the infinities included), so a sum over all rows is
  the sum over the blocks of the sums inside each block; and a sum over the blocks `0 … n` grows by one term
  when `n` does.
-/
import proofs.«402068_j42434276885043_2_alg».proof.Proof.Spec
import Mathlib.Algebra.BigOperators.Fin

noncomputable section

namespace Cert.Ortho

/-- Row `r` of block `t` is the image of the pair `(t, r)` under the standard numbering of pairs. -/
private theorem tileRow_eq_pair (t : Fin 200) (r : Fin 10000) :
    tileRow t r = finProdFinEquiv (m := 200) (n := 10000) (t, r) := by
  apply Fin.ext
  simp only [tileRow, finProdFinEquiv_apply_val]
  omega

/-- A sum over the two million rows is the sum, block by block, of the sums over each block's rows. -/
theorem sum_rows_eq_sum_tiles (f : Fin 2000000 → EReal) :
    ∑ R : Fin 2000000, f R = ∑ t : Fin 200, ∑ r : Fin 10000, f (tileRow t r) := by
  -- the pairs `(t, r)` number the rows once each, so the double sum is the sum over pairs, re-indexed
  refine ((Fintype.sum_prod_type' fun t r => f (tileRow t r)).symm.trans ?_).symm
  refine Fintype.sum_equiv (finProdFinEquiv (m := 200) (n := 10000)) _ _ ?_
  rintro ⟨t, r⟩
  exact congrArg f (tileRow_eq_pair t r)

/-- A group's sum over all rows is the sum of its sums over the blocks. -/
theorem segSum_tiles (x : Fin 2000000 → Fin 64 → EReal) (g : Fin 2000000 → BitVec 32) (s : Fin 16) (d : Fin 64) :
    segSum x g s d = ∑ t : Fin 200, segSum (fun r => x (tileRow t r)) (fun r => g (tileRow t r)) s d := by
  unfold segSum
  exact sum_rows_eq_sum_tiles fun R => hot (g R) s * unitEntry (x R) d

/-- A group's count over all rows is the sum of its counts over the blocks. -/
theorem segCount_tiles (g : Fin 2000000 → BitVec 32) (s : Fin 16) :
    segCount g s = ∑ t : Fin 200, segCount (fun r => g (tileRow t r)) s := by
  unfold segCount
  exact sum_rows_eq_sum_tiles fun R => hot (g R) s

/-- The sum over the blocks up to block `0` is block `0`'s term. -/
theorem sum_upto_zero (f : Fin 200 → EReal) :
    (∑ t : Fin 200, if t.val ≤ 0 then f t else 0) = f ⟨0, by omega⟩ := by
  -- every block other than block `0` contributes `0`
  refine (Finset.sum_eq_single (⟨0, by omega⟩ : Fin 200) ?_ ?_).trans ?_
  · intro t _ ht
    have h0 : ¬ t.val ≤ 0 := by
      intro h
      apply ht
      apply Fin.ext
      show t.val = 0
      omega
    exact if_neg h0
  · intro h
    exact absurd (Finset.mem_univ _) h
  · exact if_pos (Nat.le_refl 0)

/-- Being among the blocks `0 … n + 1` is being among `0 … n` or being block `n + 1`, and never both. -/
private theorem upto_succ_term (f : Fin 200 → EReal) (n : ℕ) (h : n + 1 < 200) (t : Fin 200) :
    (if t.val ≤ n + 1 then f t else 0)
      = (if t.val ≤ n then f t else 0) + (if t = ⟨n + 1, h⟩ then f t else 0) := by
  by_cases h1 : t.val ≤ n
  · have h2 : t.val ≤ n + 1 := by omega
    have h3 : t ≠ ⟨n + 1, h⟩ := by
      intro e
      have : t.val = n + 1 := congrArg Fin.val e
      omega
    rw [if_pos h1, if_pos h2, if_neg h3, add_zero]
  · by_cases h3 : t = ⟨n + 1, h⟩
    · have h2 : t.val ≤ n + 1 := by
        have : t.val = n + 1 := congrArg Fin.val h3
        omega
      rw [if_neg h1, if_pos h2, if_pos h3, zero_add]
    · have h2 : ¬ t.val ≤ n + 1 := by
        intro h2
        apply h3
        apply Fin.ext
        show t.val = n + 1
        omega
      rw [if_neg h1, if_neg h2, if_neg h3, add_zero]

/-- The sum over the blocks up to block `n + 1` is the sum up to block `n` plus block `n + 1`'s term. -/
theorem sum_upto_succ (f : Fin 200 → EReal) (n : ℕ) (h : n + 1 < 200) :
    (∑ t : Fin 200, if t.val ≤ n + 1 then f t else 0) = (∑ t : Fin 200, if t.val ≤ n then f t else 0) + f ⟨n + 1, h⟩ := by
  refine (Finset.sum_congr rfl fun t _ => upto_succ_term f n h t).trans ?_
  refine Finset.sum_add_distrib.trans ?_
  refine congrArg (fun z => (∑ t : Fin 200, if t.val ≤ n then f t else 0) + z) ?_
  refine (Finset.sum_ite_eq' Finset.univ (⟨n + 1, h⟩ : Fin 200) f).trans ?_
  exact if_pos (Finset.mem_univ _)

/-- Up to the last block it is the sum over all blocks. -/
theorem sum_upto_last (f : Fin 200 → EReal) :
    (∑ t : Fin 200, if t.val ≤ 199 then f t else 0) = ∑ t : Fin 200, f t := by
  refine Finset.sum_congr rfl fun t _ => ?_
  have ht : t.val ≤ 199 := by
    have := t.isLt
    omega
  exact if_pos ht

end Cert.Ortho

end
-- ==== Proof.Accum.lean ====
/-
  The two accumulators after each grid point.

  Grid point `t` is handed block `t` of the rows (rows `10000·t … 10000·t + 9999`) and the same block of the
  group words. After point `0` the sums accumulator holds the stored value over zeros, after point `n + 1` the
  stored value over what point `n` left. Read at an entry over the extended reals, that is the sum over the blocks
  `0 … n` of each block's group sum; likewise the counts.
-/
import proofs.«402068_j42434276885043_2_alg».proof.Proof.Pieces
import proofs.«402068_j42434276885043_2_alg».proof.Proof.Payload
import proofs.«402068_j42434276885043_2_alg».proof.Proof.SumTiles
import proofs.«402068_j42434276885043_2_alg».proof.Proof.LibRowCasts
import Idealize.ShloMosaic.Lib.StableHlo.Run

noncomputable section

namespace Cert.KernelIdeal.Body

open Idealize.ShloMosaic Idealize.ShloMosaic.TcCoe Idealize.SL.Sem Idealize.ShloMosaic.ValueIdx
open Cert.KernelIdeal Cert.KernelIdeal.Gen Cert.KernelIdeal.Facts₀ Cert.Ortho

section anyFloat

variable {F : FTy → Type} [FloatOps F]
variable (m : (ℓ : Loc nD τ sig) → Buf (Elt F) ℓ)

/-- Block `t` of the rows, and of the group words, as the body loads them. -/
abbrev xblk (c : Dev nD) (t : Fin cfg0.N) : Vec F S10000x64 .f32 := iblk m c 0 t
abbrev gblk (c : Dev nD) (t : Fin cfg0.N) : Vec F S10000x1 .i32 := iblk m c 1 t

/-- The sums accumulator after point `n`: the stored value over zeros, then over the point before. -/
def sumsAfter (c : Dev nD) : (n : ℕ) → n < cfg0.N → Vec F S16x64 .f32
  | 0, h => k0_pay4 (xblk m c ⟨0, h⟩) (gblk m c ⟨0, h⟩) (k0_pay1 (F := F))
  | n + 1, h => k0_pay4 (xblk m c ⟨n + 1, h⟩) (gblk m c ⟨n + 1, h⟩) (sumsAfter c n (Nat.lt_of_succ_lt h))

/-- The counts accumulator after point `n`. -/
def countsAfter (c : Dev nD) : (n : ℕ) → n < cfg0.N → Vec F S1x16 .f32
  | 0, h => k0_pay5 (gblk m c ⟨0, h⟩) (k0_pay2 (F := F))
  | n + 1, h => k0_pay5 (gblk m c ⟨n + 1, h⟩) (countsAfter c n (Nat.lt_of_succ_lt h))

/-- What the two staging buffers hold after point `n` is that pair: by induction on the point. -/
theorem outsAt_eq (c : Dev nD) : ∀ (n : ℕ) (h : n < cfg0.N), outsAt0 m c n h = (sumsAfter m c n h, countsAfter m c n h)
  | 0, h => by
    rw [outsAt0_A m c ⟨0, h⟩ rfl, sums_first, counts_first]
    rfl
  | n + 1, h => by
    have hN : cfg0.N = 200 := N_0
    have hB : ¬(⟨n + 1, h⟩ : Fin cfg0.N).val % 200 = 0 := by dsimp only; omega
    rw [outsAt0_B m c ⟨n + 1, h⟩ hB, sums_later, counts_later]
    show (k0_pay4 _ _ (outsAt0 m c n _).1, k0_pay5 _ (outsAt0 m c n _).2) = _
    rw [outsAt_eq c n]
    rfl

end anyFloat

section extendedReals

variable (m : (ℓ : Loc nD τ sig) → Buf (Elt Ideal) ℓ)

/-- The rows and the group words as plain functions of the row number. -/
def rowsOf (c : Dev nD) : Fin 2000000 → Fin 64 → EReal := fun R k => m ((c : Thread nD τ).loc main_arg0) (ix2 R k)
def wordsOf (c : Dev nD) : Fin 2000000 → BitVec 32 := fun R => m ((c : Thread nD τ).loc main_arg1) (ix1 R)

/-- A grid point as a block number. -/
def blockNo (t : Fin cfg0.N) : Fin 200 := ⟨t.val, lt_of_lt_of_eq t.isLt N_0⟩

/-- Group `s`'s sum of column `d` over block `t`, and its count there. -/
def tileSum (c : Dev nD) (t : Fin 200) (s : Fin 16) (d : Fin 64) : EReal :=
  segSum (fun r => rowsOf m c (tileRow t r)) (fun r => wordsOf m c (tileRow t r)) s d
def tileCount (c : Dev nD) (t : Fin 200) (s : Fin 16) : EReal :=
  segCount (fun r => wordsOf m c (tileRow t r)) s

/-- The block index of the two input windows at point `t` is `(t, 0)`: decided over the grid. -/
theorem in_index : ∀ t : Fin cfg0.N, (win0_0.index t 0 = t.val ∧ win0_0.index t 1 = 0) ∧ (win0_1.index t 0 = t.val ∧ win0_1.index t 1 = 0) :=
  (by decide +kernel : ∀ t : Fin grid0.N, (win0_0.index t 0 = t.val ∧ win0_0.index t 1 = 0) ∧ (win0_1.index t 0 = t.val ∧ win0_1.index t 1 = 0))

/-- Entry `(r, k)` of block `t` of the rows is entry `(10000·t + r, k)` of the rows. -/
theorem xblk_apply (c : Dev nD) (t : Fin cfg0.N) (r : Fin 10000) (k : Fin 64) :
    xblk m c t (ix2 r k) = rowsOf m c (tileRow (blockNo t) r) k := by
  unfold xblk iblk
  rw [View.read_apply]
  show V m c main_arg0 _ = _
  refine (congrFun (V_main_arg0 m c) _).trans ?_
  unfold rowsOf
  congr 1
  funext a
  apply Fin.ext
  have hi := (in_index t).1
  match a with
  | ⟨0, _⟩ =>
    show win0_0.index t 0 * 10000 + 1 * r.val = 10000 * t.val + r.val
    rw [hi.1]; omega
  | ⟨1, _⟩ =>
    show win0_0.index t 1 * 64 + 1 * k.val = k.val
    rw [hi.2]; omega

/-- Before the region the group words are recast as a column. -/
theorem words_column (c : Dev nD) :
    (V m c main_v0 : S2000000x1.Idx → BitVec 32)
      = shapeCast S2000000x1 (m ((c : Thread nD τ).loc main_arg1)) Facts₀.shapeCasts_S2000000_S2000000x1 := by
  show StableHlo.after hostOps0 (fun b => m (c, b)) (Proc.devRef .tc main_v0) = _
  after_results
  rfl

/-- Entry `r` of block `t` of the group words is the word of row `10000·t + r`. -/
theorem gblk_apply (c : Dev nD) (t : Fin cfg0.N) (r : Fin 10000) :
    gblk m c t (ix2 r (0 : Fin 1)) = wordsOf m c (tileRow (blockNo t) r) := by
  unfold gblk iblk
  rw [View.read_apply]
  show V m c main_v0 _ = _
  refine (congrFun (words_column m c) _).trans ?_
  unfold wordsOf
  have hi := (in_index t).2
  refine (congrArg (shapeCast S2000000x1 (m ((c : Thread nD τ).loc main_arg1)) Facts₀.shapeCasts_S2000000_S2000000x1)
    (?_ : _ = ix2 (tileRow (blockNo t) r) (0 : Fin 1))).trans
    (RowCasts.shapeCast_column_apply (m ((c : Thread nD τ).loc main_arg1)) Facts₀.shapeCasts_S2000000_S2000000x1 _ _)
  funext a
  apply Fin.ext
  match a with
  | ⟨0, _⟩ =>
    show win0_1.index t 0 * 10000 + 1 * r.val = 10000 * t.val + r.val
    rw [hi.1]; omega
  | ⟨1, _⟩ =>
    show win0_1.index t 1 * 1 + 1 * 0 = 0
    rw [hi.2]

/-- A block's group sum and count, from the blocks as the body loads them. -/
theorem block_segSum (c : Dev nD) (t : Fin cfg0.N) (s : Fin 16) (d : Fin 64) :
    segSum (fun (r : Fin 10000) (k : Fin 64) => xblk m c t (ix2 r k)) (fun r => gblk m c t (ix2 r (0 : Fin 1))) s d
      = tileSum m c (blockNo t) s d := by
  unfold tileSum
  congr 1
  · funext r k; exact xblk_apply m c t r k
  · funext r; exact gblk_apply m c t r

theorem block_segCount (c : Dev nD) (t : Fin cfg0.N) (s : Fin 16) :
    segCount (fun (r : Fin 10000) => gblk m c t (ix2 r (0 : Fin 1))) s = tileCount m c (blockNo t) s := by
  unfold tileCount
  congr 1
  funext r; exact gblk_apply m c t r

/-- After point `n` the sums accumulator holds, at `(s, d)`, the blocks' group sums up to block `n`. -/
theorem sumsAfter_apply (c : Dev nD) : ∀ (n : ℕ) (h : n < cfg0.N) (s : Fin 16) (d : Fin 64),
    sumsAfter m c n h (ix2 s d) = ∑ t : Fin 200, if t.val ≤ n then tileSum m c t s d else 0
  | 0, h, s, d => by
    show k0_pay4 (xblk m c ⟨0, h⟩) (gblk m c ⟨0, h⟩) (k0_pay1 (F := Ideal)) (ix2 s d) = _
    refine (sums_payload_apply (xblk m c ⟨0, h⟩) (gblk m c ⟨0, h⟩) (k0_pay1 (F := Ideal)) s d).trans ?_
    rw [zero_sums_apply, zero_add, sum_upto_zero]
    exact block_segSum m c ⟨0, h⟩ s d
  | n + 1, h, s, d => by
    have hN : cfg0.N = 200 := N_0
    show k0_pay4 (xblk m c ⟨n + 1, h⟩) (gblk m c ⟨n + 1, h⟩) (sumsAfter m c n (Nat.lt_of_succ_lt h)) (ix2 s d) = _
    refine (sums_payload_apply (xblk m c ⟨n + 1, h⟩) (gblk m c ⟨n + 1, h⟩) (sumsAfter m c n (Nat.lt_of_succ_lt h)) s d).trans ?_
    rw [sum_upto_succ _ n (by omega), sumsAfter_apply c n (Nat.lt_of_succ_lt h) s d]
    exact congrArg _ (block_segSum m c ⟨n + 1, h⟩ s d)

/-- After point `n` the counts accumulator holds, at `s`, the blocks' group counts up to block `n`. -/
theorem countsAfter_apply (c : Dev nD) : ∀ (n : ℕ) (h : n < cfg0.N) (s : Fin 16),
    countsAfter m c n h (ix2 (0 : Fin 1) s) = ∑ t : Fin 200, if t.val ≤ n then tileCount m c t s else 0
  | 0, h, s => by
    show k0_pay5 (gblk m c ⟨0, h⟩) (k0_pay2 (F := Ideal)) (ix2 (0 : Fin 1) s) = _
    refine (counts_payload_apply (gblk m c ⟨0, h⟩) (k0_pay2 (F := Ideal)) s).trans ?_
    rw [zero_counts_apply, zero_add, sum_upto_zero]
    exact block_segCount m c ⟨0, h⟩ s
  | n + 1, h, s => by
    have hN : cfg0.N = 200 := N_0
    show k0_pay5 (gblk m c ⟨n + 1, h⟩) (countsAfter m c n (Nat.lt_of_succ_lt h)) (ix2 (0 : Fin 1) s) = _
    refine (counts_payload_apply (gblk m c ⟨n + 1, h⟩) (countsAfter m c n (Nat.lt_of_succ_lt h)) s).trans ?_
    rw [sum_upto_succ _ n (by omega), countsAfter_apply c n (Nat.lt_of_succ_lt h) s]
    exact congrArg _ (block_segCount m c ⟨n + 1, h⟩ s)

/-- After the last point: the group sums and counts over all two million rows. -/
theorem sums_last (c : Dev nD) (h : 199 < cfg0.N) (s : Fin 16) (d : Fin 64) :
    sumsAfter m c 199 h (ix2 s d) = segSum (rowsOf m c) (wordsOf m c) s d := by
  rw [sumsAfter_apply, sum_upto_last, segSum_tiles]
  rfl

theorem counts_last (c : Dev nD) (h : 199 < cfg0.N) (s : Fin 16) :
    countsAfter m c 199 h (ix2 (0 : Fin 1) s) = segCount (wordsOf m c) s := by
  rw [countsAfter_apply, sum_upto_last, segCount_tiles]
  rfl

end extendedReals

end Cert.KernelIdeal.Body

end
-- ==== Proof.Tail.lean ====
/-
  From the sixteen group sums and counts to the result.

  Both programs finish with the same host operations: each group's sum row is divided by its count (its mean
  unit vector), the sixteen means are multiplied with their transpose, the products `p` become `1 - (p + 1) / 2`,
  and the diagonal is cleared by the factor `1 - [i = j]`. The chain is kept as one function of the sums and the
  counts: equal sums and counts give equal results, whatever the chain does with them.
-/
import proofs.«402068_j42434276885043_2_alg».proof.ReferenceIdeal
import Idealize.ShloMosaic.PureOps.Ideal

noncomputable section

namespace Cert.Ortho

open Idealize.ShloMosaic Cert.ReferenceIdeal Cert.ReferenceIdeal.Facts₀

variable [Cert.ReferenceIdeal.Facts]

/-- Each group's sum row divided by its count. -/
def means (S : FVec Ideal S16x64 .f32) (C : FVec Ideal S16 .f32) : FVec Ideal S16x64 .f32 :=
  Host.divf (F := Ideal) S (broadcastInDim S16x64 ![0, 1] bcast_S16x1_S16x64_0_1 (broadcastInDim S16x1 ![0] bcast_S16_S16x1_0 C))

/-- The result as a function of the group sums and counts. -/
def dist (S : FVec Ideal S16x64 .f32) (C : FVec Ideal S16 .f32) : FVec Ideal S16x16 .f32 :=
  mulf (subf (broadcastInDim S16x16 ![] bcast_S_S16x16 (constant (F := Ideal) S_ .f32 0x3F800000#32))
      (Host.divf (F := Ideal) (addf (Host.dotGeneral (F := Ideal) dot_S16x64_S64x16_S16x16_1_0_0_1_n_n none (means S C)
            (transpose S64x16 [1, 0] (means S C) transposes_S16x64_S64x16_1_0))
          (broadcastInDim S16x16 ![] bcast_S_S16x16 (constant (F := Ideal) S_ .f32 0x3F800000#32)))
        (broadcastInDim S16x16 ![] bcast_S_S16x16 (constant (F := Ideal) S_ .f32 0x40000000#32))))
    (subf (broadcastInDim S16x16 ![] bcast_S_S16x16 (constant (F := Ideal) S_ .f32 0x3F800000#32))
      (uitofp (F := Ideal) .f32 (cmpi .eq (addi (iotaInDim S16x16 32 0) (broadcastInDim S16x16 ![] bcast_S_S16x16 (constantI S_ 32 0#32)))
        (iotaInDim S16x16 32 1))))

end Cert.Ortho

end
-- ==== Proof.KernelRun.lean ====
/-
  The kernel's run, read as values.

  Both result arrays of the region are one block, written back once, after the last grid point: so they end holding
  what the accumulators hold then. The host operations after the region turn the sums and the counts (recast from
  one row to a vector) into the result.
-/
import proofs.«402068_j42434276885043_2_alg».proof.Proof.Accum
import proofs.«402068_j42434276885043_2_alg».proof.Proof.Tail
import proofs.«402068_j42434276885043_2_alg».proof.Proof.Gen.ReferenceIdeal
import Idealize.ShloMosaic.Lib.Pipeline.Value
import Idealize.ShloMosaic.Lib.StableHlo.Run

noncomputable section

namespace Cert.KernelIdeal.Body

open Idealize.ShloMosaic Idealize.ShloMosaic.TcCoe Idealize.SL.Sem Idealize.ShloMosaic.ValueIdx
open Idealize.ShloMosaic.Pipeline (Dat)
open Cert.KernelIdeal Cert.KernelIdeal.Gen Cert.Ortho

section anyFloat

variable {F : FTy → Type} [FloatOps F]
variable (m : (ℓ : Loc nD τ sig) → Buf (Elt F) ℓ) (ρ : Dev nD → PrngReg)

theorem last_lt : 199 < cfg0.N := by rw [show cfg0.N = 200 from N_0]; omega

/-- The last grid point. -/
abbrev lastPt : Fin cfg0.N := ⟨199, last_lt⟩

/-- Both output windows sit at block `(0, 0)` at every point: decided over the grid. -/
theorem out_index : ∀ t : Fin cfg0.N, (win0_2.index t 0 = 0 ∧ win0_2.index t 1 = 0) ∧ (win0_3.index t 0 = 0 ∧ win0_3.index t 1 = 0) :=
  (by decide +kernel : ∀ t : Fin grid0.N, (win0_2.index t 0 = 0 ∧ win0_2.index t 1 = 0) ∧ (win0_3.index t 0 = 0 ∧ win0_3.index t 1 = 0))

/-- The one write-back of the sums, after the last point, writes the accumulator whole. -/
theorem flushed_sums (c : Dev nD) (t : Fin cfg0.N) (hf : (cfg0.win 2).flush t = true) :
    (dats m 0 c).flushed 2 t = ((cfg0.win 2).blk t).view.read (Elt F) (sumsAfter m c 199 last_lt) := by
  have hN : cfg0.N = 200 := N_0
  have h199 : t.val = 199 := by have := (flush0_2 t).mp hf; have := t.isLt; omega
  obtain rfl : t = lastPt := Fin.ext h199
  show (cfg0.win 2).cut (grid0.coords lastPt) ((dats m 0 c).after 2 lastPt) = _
  rw [after0_2, outsAt_eq]
  have hz' : (fun a => win0_2.index lastPt a * main_v1_0.ty.shape.size a) = fun _ => 0 :=
    funext fun a => by
      match a with
      | ⟨0, _⟩ => show win0_2.index lastPt 0 * 16 = 0; rw [(out_index lastPt).1.1]
      | ⟨1, _⟩ => show win0_2.index lastPt 1 * 64 = 0; rw [(out_index lastPt).1.2]
  exact (Memref.read_access_unit_zero (Elt F) main_v1_0 hz' (fun a => by rw [congrFun hz' a]; simp) (sumsAfter m c 199 last_lt)).symm

/-- The one write-back of the counts, after the last point, writes the accumulator whole. -/
theorem flushed_counts (c : Dev nD) (t : Fin cfg0.N) (hf : (cfg0.win 3).flush t = true) :
    (dats m 0 c).flushed 3 t = ((cfg0.win 3).blk t).view.read (Elt F) (countsAfter m c 199 last_lt) := by
  have hN : cfg0.N = 200 := N_0
  have h199 : t.val = 199 := by have := (flush0_3 t).mp hf; have := t.isLt; omega
  obtain rfl : t = lastPt := Fin.ext h199
  show (cfg0.win 3).cut (grid0.coords lastPt) ((dats m 0 c).after 3 lastPt) = _
  rw [after0_3, outsAt_eq]
  have hz' : (fun a => win0_3.index lastPt a * main_v1_1.ty.shape.size a) = fun _ => 0 :=
    funext fun a => by
      match a with
      | ⟨0, _⟩ => show win0_3.index lastPt 0 * 1 = 0; rw [(out_index lastPt).2.1]
      | ⟨1, _⟩ => show win0_3.index lastPt 1 * 16 = 0; rw [(out_index lastPt).2.2]
  exact (Memref.read_access_unit_zero (Elt F) main_v1_1 hz' (fun a => by rw [congrFun hz' a]; simp) (countsAfter m c 199 last_lt)).symm

/-- So the sums array ends holding the sums accumulator after the last point: that point's block is the array. -/
theorem final_sums (c : Dev nD) : (dats m 0 c).arrAt 2 cfg0.N = sumsAfter m c 199 last_lt :=
  (dats m 0 c).arrAt_eq_of_cover 2 (sumsAfter m c 199 last_lt) (flushed_sums m c) fun i =>
    ⟨lastPt, (flush0_2 lastPt).mpr rfl, by
      show i ∈ ((View.whole main_v1_0).slice (win0_2.rect lastPt)).set
      rw [View.set_slice_whole, Rect.mem_set_unit]
      intro a
      have h0 : (i 0 : Nat) < 16 := (i 0).isLt
      have h1 : (i 1 : Nat) < 64 := (i 1).isLt
      match a with
      | ⟨0, _⟩ =>
        show win0_2.index lastPt 0 * 16 ≤ (i 0 : Nat) ∧ (i 0 : Nat) < win0_2.index lastPt 0 * 16 + win0_2.xsize (grid0.coords lastPt) 0
        rw [(out_index lastPt).1.1, show win0_2.xsize (grid0.coords lastPt) 0 = 16 from by decide +kernel]; omega
      | ⟨1, _⟩ =>
        show win0_2.index lastPt 1 * 64 ≤ (i 1 : Nat) ∧ (i 1 : Nat) < win0_2.index lastPt 1 * 64 + win0_2.xsize (grid0.coords lastPt) 1
        rw [(out_index lastPt).1.2, show win0_2.xsize (grid0.coords lastPt) 1 = 64 from by decide +kernel]; omega⟩

/-- And the counts array the counts accumulator. -/
theorem final_counts (c : Dev nD) : (dats m 0 c).arrAt 3 cfg0.N = countsAfter m c 199 last_lt :=
  (dats m 0 c).arrAt_eq_of_cover 3 (countsAfter m c 199 last_lt) (flushed_counts m c) fun i =>
    ⟨lastPt, (flush0_3 lastPt).mpr rfl, by
      show i ∈ ((View.whole main_v1_1).slice (win0_3.rect lastPt)).set
      rw [View.set_slice_whole, Rect.mem_set_unit]
      intro a
      have h0 : (i 0 : Nat) < 1 := (i 0).isLt
      have h1 : (i 1 : Nat) < 16 := (i 1).isLt
      match a with
      | ⟨0, _⟩ =>
        show win0_3.index lastPt 0 * 1 ≤ (i 0 : Nat) ∧ (i 0 : Nat) < win0_3.index lastPt 0 * 1 + win0_3.xsize (grid0.coords lastPt) 0
        rw [(out_index lastPt).2.1, show win0_3.xsize (grid0.coords lastPt) 0 = 1 from by decide +kernel]; omega
      | ⟨1, _⟩ =>
        show win0_3.index lastPt 1 * 16 ≤ (i 1 : Nat) ∧ (i 1 : Nat) < win0_3.index lastPt 1 * 16 + win0_3.xsize (grid0.coords lastPt) 1
        rw [(out_index lastPt).2.2, show win0_3.xsize (grid0.coords lastPt) 1 = 16 from by decide +kernel]; omega⟩

end anyFloat

section extendedReals

variable (m : (ℓ : Loc nD τ sig) → Buf (Elt Ideal) ℓ) (ρ : Dev nD → PrngReg)

/-- The counts after the last point, recast from one row of sixteen to a vector. -/
def lastCounts (c : Dev nD) : FVec Ideal S16 .f32 :=
  shapeCast S16 (countsAfter m c 199 last_lt) Facts₀.shapeCasts_S1x16_S16

/-- What the host operations after the region leave in the result buffer. -/
theorem tail_value (c : Dev nD) :
    Pipeline.afterTail₀ cfgs (dats m) 0 (V0 m) [hostOps1] c main_v22
      = dist (sumsAfter m c 199 last_lt) (lastCounts m c) := by
  unfold Pipeline.afterTail₀
  show StableHlo.after hostOps1 _ (Proc.devRef .tc main_v22) = _
  after_results
  have e2 : Pipeline.withArrays (cfgs 0).spec c (V0 m c) (fun w => (dats m 0 c).arrAt w (cfgs 0).N) (Proc.devRef .tc main_v1_0)
      = sumsAfter m c 199 last_lt :=
    (Pipeline.withArrays_arr spec0 launch0.win.arr_inj c _ _ 2).trans (final_sums m c)
  have e3 : Pipeline.withArrays (cfgs 0).spec c (V0 m c) (fun w => (dats m 0 c).arrAt w (cfgs 0).N) (Proc.devRef .tc main_v1_1)
      = countsAfter m c 199 last_lt :=
    (Pipeline.withArrays_arr spec0 launch0.win.arr_inj c _ _ 3).trans (final_counts m c)
  rw [e2, e3]
  rfl

/-- Every execution of the kernel's program ends with the result at the shared chain of the accumulators' last
    values, the arguments unchanged. -/
theorem run : θ_run defs (onTc (τ := τ) (main (F := Ideal))) ⟨m, fun _ => 0, ρ⟩ fun r => ∀ c : Dev nD,
      r.2.mem ((c.tc : Thread nD τ).loc main_v22) = dist (sumsAfter m c 199 last_lt) (lastCounts m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v22 (Pipeline.mem_restRefs_of main_v22 (by decide) (by decide))).trans (tail_value m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

/-- The last sums and counts, entry by entry: the group sums and counts over all two million rows. -/
theorem lastSums_apply (c : Dev nD) (s : Fin 16) (d : Fin 64) :
    sumsAfter m c 199 last_lt (ix2 s d) = segSum (rowsOf m c) (wordsOf m c) s d :=
  sums_last m c last_lt s d

theorem lastCounts_apply (c : Dev nD) (s : Fin 16) :
    lastCounts m c (ix1 s) = segCount (wordsOf m c) s := by
  unfold lastCounts
  refine (shapeCast_apply (countsAfter m c 199 last_lt) Facts₀.shapeCasts_S1x16_S16 (ix1 s) (ix2 (0 : Fin 1) s) ?_).trans
    (counts_last m c last_lt s)
  rw [Shape.rowMajor_val_one, Shape.rowMajor_val_two]
  show 0 * 16 + s.val = s.val
  omega

end extendedReals

end Cert.KernelIdeal.Body

end
-- ==== Proof.LibScatterAdd.lean ====
/-
  The host's accumulating scatter over the extended reals, read at an index, for any dimension numbers.

  * An update lands at an operand index `i` exactly when, on every operand axis, its start (the index word read as
    a signed number, unclamped) plus its window coordinate is `i`'s coordinate; an update that would land outside
    the operand lands nowhere.
  * So an entry of the scattered array is the operand's entry plus the sum, over ALL update indices, of the updates
    that land there.
  * A 32-bit word read signed is a number `n` below `2 ^ 31` exactly when it is the word of `n`.
  * The word `0x3F800000` is the number one; a sum over a rank-1 index set is the sum over its one coordinate.
-/
import Idealize.ShloMosaic.Lib.ValueIdx
import Idealize.ShloMosaic.PureOps.Ideal.Laws

noncomputable section

namespace Idealize.ShloMosaic.ScatterAddRead

open Idealize.ShloMosaic Idealize.ShloMosaic.ValueIdx

/-- An update lands at `i` exactly when, on every operand axis, its start plus its window coordinate is `i`'s
    coordinate: the range test of the landing index is then `i`'s own bound. -/
theorem resultIdx?_eq_some_iff {s si u : Shape} (D : ScatterDims s si u) {w : Nat} (j : u.Idx) (idx : IVec si w)
    (i : s.Idx) :
    D.resultIdx? j idx = some i ↔ ∀ a, D.start j idx a + (D.window j a : ℤ) = ((i a).val : ℤ) := by
  unfold ScatterDims.resultIdx?
  by_cases h : ∀ a, 0 ≤ D.start j idx a + D.window j a ∧ D.start j idx a + D.window j a < s.size a
  · rw [dif_pos h]
    constructor
    · intro e a
      have e1 := congrArg Fin.val (congrFun (Option.some.inj e) a)
      have := (h a).1
      simp only at e1
      omega
    · intro e
      refine congrArg some (funext fun a => Fin.ext ?_)
      have := e a
      simp only
      omega
  · rw [dif_neg h]
    constructor
    · intro e; cases e
    · intro e
      exact absurd (fun a => by have := e a; have := (i a).isLt; omega) h

/-- A 32-bit word read signed is the number `n` (below `2 ^ 31`) exactly when it is the word of `n`: a word with
    its top bit set reads negative, and below `2 ^ 31` the signed and unsigned readings agree. -/
theorem toInt_eq_iff_eq_ofNat (w : BitVec 32) (n : ℕ) (hn : n < 2147483648) :
    w.toInt = (n : ℤ) ↔ w = BitVec.ofNat 32 n := by
  have hw := w.isLt
  constructor
  · intro e
    apply BitVec.eq_of_toNat_eq
    rw [BitVec.toNat_ofNat]
    rw [BitVec.toInt_eq_toNat_cond] at e
    split at e <;> omega
  · intro e
    subst e
    rw [BitVec.toInt_eq_toNat_cond, BitVec.toNat_ofNat]
    split <;> omega

/-- The scatter at the extended reals, read at an index: the operand there plus the sum, over ALL update indices, of
    the updates that land there. -/
theorem scatterAdd_apply {s si u : Shape} (D : ScatterDims s si u) {w : Nat} (x : FVec Ideal s .f32)
    (idx : IVec si w) (upd : FVec Ideal u .f32) (i : s.Idx) :
    Host.scatterAdd (F := Ideal) D x idx upd i = x i + ∑ j, if D.resultIdx? j idx = some i then upd j else 0 := by
  unfold Host.scatterAdd
  rw [Ideal.hostScatterAdd_def]
  unfold Ideal.hostScatterAdd
  rw [Finset.sum_filter]

/-- The word `0x3F800000` is the number one: sign clear, exponent field `127` (the bias), fraction zero, so
    `2 ^ 23 * 2 ^ (127 - 127 - 23) = 1`. -/
theorem ofBits_one_f32 : Ideal.ofBits .f32 0x3F800000#32 = 1 := by
  show Ideal.ieee 8 23 (0x3F800000#32) = 1
  unfold Ideal.ieee
  have hneg : ((0x3F800000#32).extractLsb' (8 + 23) 1 == 1#1) = false := by decide
  have hex : ((0x3F800000#32).extractLsb' 23 8).toNat = 127 := by decide
  have hfr : ((0x3F800000#32).extractLsb' 0 23).toNat = 0 := by decide
  simp only [hneg, hex, hfr]
  norm_num

/-- A sum over a rank-1 index set is the sum over its one coordinate. -/
theorem sum_idx1 {M : Type*} [AddCommMonoid M] {n : Nat} (f : (⟨1, ![n]⟩ : Shape).Idx → M) :
    ∑ i, f i = ∑ a : Fin n, f (ix1 a) := by
  let e : Fin n ≃ (⟨1, ![n]⟩ : Shape).Idx :=
    { toFun := fun a => ix1 a, invFun := fun i => i 0, left_inv := fun _ => rfl, right_inv := fun i => (eq_ix1 i).symm }
  exact (Equiv.sum_comp e f).symm

end Idealize.ShloMosaic.ScatterAddRead

end
-- ==== Proof.ScatterRead.lean ====
/-
  The reference's two accumulating scatters, read at an index.

  Row `R`'s update lands on operand row `g R` read as a signed number, unclamped, and is dropped when that is no
  row of the sixteen. So entry `(s, d)` of the scattered sums is the zero it starts from plus the sum of column
  `d` over the rows whose word is the word of `s`; written with the weight `hot`, a sum over all rows. The counts
  are the same scatter of ones.
-/
import proofs.«402068_j42434276885043_2_alg».proof.ReferenceIdeal
import proofs.«402068_j42434276885043_2_alg».proof.Proof.Spec
import proofs.«402068_j42434276885043_2_alg».proof.Proof.LibScatterAdd
import Idealize.ShloMosaic.Lib.ValueIdx
import Idealize.ShloMosaic.PureOps.Ideal.Laws

noncomputable section

namespace Cert.ReferenceIdeal.Scatter

open Idealize.ShloMosaic Idealize.ShloMosaic.ValueIdx Idealize.ShloMosaic.ScatterAddRead Cert.ReferenceIdeal Cert.ReferenceIdeal.Facts₀

variable [Cert.ReferenceIdeal.Facts]

/-! ## Small readings -/

/-- A row's word read signed is the group number `s` exactly when it is the word of `s`. -/
private theorem word_eq_iff (w : BitVec 32) (s : Fin 16) : w.toInt = (s.val : ℤ) ↔ w = BitVec.ofNat 32 s.val :=
  toInt_eq_iff_eq_ofNat w s.val (by have := s.isLt; omega)

/-- The weight times a value is the value when the word is the group's and zero otherwise (at every extended real,
    the infinite ones included: `1 * v = v` and `0 * v = 0`). -/
private theorem hot_mul (w : BitVec 32) (s : Fin 16) (v : EReal) :
    Cert.Ortho.hot w s * v = if w = BitVec.ofNat 32 s.val then v else 0 := by
  unfold Cert.Ortho.hot
  split
  · rw [one_mul]
  · rw [zero_mul]

/-- The group words as a column: entry `(R, 0)` is row `R`'s word. -/
private theorem idx_read (g : IVec S2000000 32) (R : Fin 2000000) :
    broadcastInDim S2000000x1 ![0] bcast_S2000000_S2000000x1_0 g (ix2 R 0) = g (ix1 R) := by
  unfold broadcastInDim
  refine congrArg g (funext fun a => ?_)
  match a with
  | ⟨0, _⟩ => exact dif_neg (show ¬ (2000000 : ℕ) = 1 by decide)

/-! ## The sums: updates `(R, d')` into sixteen rows of sixty-four -/

/-- On the row axis the window starts at row `R`'s word, read signed … -/
private theorem start2_zero (R : Fin 2000000) (d' : Fin 64) (idx : IVec S2000000x1 32) :
    scatter_S16x64_S2000000x1_S2000000x64_1_0_0_1.start (ix2 R d') idx 0 = (idx (ix2 R 0)).toInt := by
  unfold ScatterDims.start
  rw [dif_pos (show (0 : Fin 2) ∈ scatter_S16x64_S2000000x1_S2000000x64_1_0_0_1.scatterDimsToOperandDims from
    List.mem_singleton.2 rfl)]
  refine congrArg (fun k => (idx k).toInt) (funext fun b => ?_)
  match b with
  | ⟨0, _⟩ => rfl
  | ⟨1, _⟩ => rfl

/-- … and on the column axis, which the index vector does not name, at zero. -/
private theorem start2_one (j : S2000000x64.Idx) (idx : IVec S2000000x1 32) :
    scatter_S16x64_S2000000x1_S2000000x64_1_0_0_1.start j idx 1 = 0 := by
  unfold ScatterDims.start
  rw [dif_neg (show ¬ (1 : Fin 2) ∈ scatter_S16x64_S2000000x1_S2000000x64_1_0_0_1.scatterDimsToOperandDims by
    show ¬ (1 : Fin 2) ∈ [(0 : Fin 2)]; decide)]

/-- The row axis is an inserted one: its window coordinate is zero … -/
private theorem window2_zero (j : S2000000x64.Idx) :
    scatter_S16x64_S2000000x1_S2000000x64_1_0_0_1.window j 0 = 0 := by
  unfold ScatterDims.window
  rw [dif_neg (show ¬ (0 : Fin 2) ∈ scatter_S16x64_S2000000x1_S2000000x64_1_0_0_1.sKept by
    show ¬ (0 : Fin 2) ∈ S16x64.kept [(0 : Fin 2)]; decide)]

/-- … and the column axis carries the update's column. -/
private theorem window2_one (R : Fin 2000000) (d' : Fin 64) :
    scatter_S16x64_S2000000x1_S2000000x64_1_0_0_1.window (ix2 R d') 1 = d'.val := by
  unfold ScatterDims.window
  rw [dif_pos (show (1 : Fin 2) ∈ scatter_S16x64_S2000000x1_S2000000x64_1_0_0_1.sKept by
    show (1 : Fin 2) ∈ S16x64.kept [(0 : Fin 2)]; decide)]
  rfl

/-- Update `(R, d')` lands on entry `(s, d)` exactly when row `R`'s word is the word of `s` and `d' = d`. -/
private theorem lands2 (idx : IVec S2000000x1 32) (R : Fin 2000000) (d' : Fin 64) (s : Fin 16) (d : Fin 64) :
    scatter_S16x64_S2000000x1_S2000000x64_1_0_0_1.resultIdx? (ix2 R d') idx = some (ix2 s d)
      ↔ idx (ix2 R 0) = BitVec.ofNat 32 s.val ∧ d' = d := by
  rw [resultIdx?_eq_some_iff, Fin.forall_fin_two, start2_zero, start2_one, window2_zero, window2_one, ← word_eq_iff]
  constructor
  · rintro ⟨h0, h1⟩
    refine ⟨?_, Fin.ext ?_⟩
    · have : ((ix2 s d : S16x64.Idx) 0).val = s.val := rfl
      omega
    · have : ((ix2 s d : S16x64.Idx) 1).val = d.val := rfl
      omega
  · rintro ⟨h0, rfl⟩
    refine ⟨?_, ?_⟩
    · have : ((ix2 s d' : S16x64.Idx) 0).val = s.val := rfl
      omega
    · have : ((ix2 s d' : S16x64.Idx) 1).val = d'.val := rfl
      omega

/-- The sixteen rows the sums start from are zero everywhere. -/
private theorem zeros2_read (i : S16x64.Idx) :
    broadcastInDim S16x64 ![] bcast_S_S16x64 (constant (F := Ideal) S_ .f32 0x00000000#32) i = 0 := by
  unfold broadcastInDim
  exact Ideal.ofBits_zero_f32

/-- Entry `(s, d)` of the rows scattered into sixteen zero rows by their group words. -/
theorem sums_scatter_apply (upd : FVec Ideal S2000000x64 .f32) (g : IVec S2000000 32) (s : Fin 16) (d : Fin 64) :
    Host.scatterAdd (F := Ideal) scatter_S16x64_S2000000x1_S2000000x64_1_0_0_1
        (broadcastInDim S16x64 ![] bcast_S_S16x64 (constant (F := Ideal) S_ .f32 0x00000000#32))
        (broadcastInDim S2000000x1 ![0] bcast_S2000000_S2000000x1_0 g) upd (ix2 s d)
      = ∑ R : Fin 2000000, Cert.Ortho.hot (g (ix1 R)) s * upd (ix2 R d) := by
  refine (scatterAdd_apply _ _ _ _ _).trans ?_
  rw [zeros2_read, zero_add]
  -- the sum over update indices, row by row: within row `R` only column `d` can land on `(s, d)`
  refine (sum_idx2 _).trans ?_
  refine Finset.sum_congr rfl fun R _ => ?_
  rw [hot_mul, ← idx_read g R]
  by_cases hR : broadcastInDim S2000000x1 ![0] bcast_S2000000_S2000000x1_0 g (ix2 R 0) = BitVec.ofNat 32 s.val
  · rw [if_pos hR]
    have hsum : ∑ d' : Fin 64, (if d' = d then upd (ix2 R d') else 0) = upd (ix2 R d) :=
      (Finset.sum_ite_eq' Finset.univ d fun d' => upd (ix2 R d')).trans (if_pos (Finset.mem_univ d))
    refine (Finset.sum_congr rfl fun d' _ => ?_).trans hsum
    exact if_congr ((lands2 _ R d' s d).trans ⟨fun h => h.2, fun h => ⟨hR, h⟩⟩) rfl rfl
  · rw [if_neg hR]
    refine Finset.sum_eq_zero fun d' _ => if_neg ?_
    exact fun h => hR ((lands2 _ R d' s d).1 h).1

/-! ## The counts: updates `R` into sixteen entries -/

/-- On the one operand axis the window starts at row `R`'s word, read signed … -/
private theorem start1_zero (R : Fin 2000000) (idx : IVec S2000000x1 32) :
    scatter_S16_S2000000x1_S2000000_n_0_0_1.start (ix1 R) idx 0 = (idx (ix2 R 0)).toInt := by
  unfold ScatterDims.start
  rw [dif_pos (show (0 : Fin 1) ∈ scatter_S16_S2000000x1_S2000000_n_0_0_1.scatterDimsToOperandDims from
    List.mem_singleton.2 rfl)]
  refine congrArg (fun k => (idx k).toInt) (funext fun b => ?_)
  match b with
  | ⟨0, _⟩ => rfl
  | ⟨1, _⟩ => rfl

/-- … and that axis is an inserted one: no window coordinate. -/
private theorem window1_zero (j : S2000000.Idx) :
    scatter_S16_S2000000x1_S2000000_n_0_0_1.window j 0 = 0 := by
  unfold ScatterDims.window
  rw [dif_neg (show ¬ (0 : Fin 1) ∈ scatter_S16_S2000000x1_S2000000_n_0_0_1.sKept by
    show ¬ (0 : Fin 1) ∈ S16.kept [(0 : Fin 1)]; decide)]

/-- Update `R` lands on entry `s` exactly when row `R`'s word is the word of `s`. -/
private theorem lands1 (idx : IVec S2000000x1 32) (R : Fin 2000000) (s : Fin 16) :
    scatter_S16_S2000000x1_S2000000_n_0_0_1.resultIdx? (ix1 R) idx = some (ix1 s)
      ↔ idx (ix2 R 0) = BitVec.ofNat 32 s.val := by
  rw [resultIdx?_eq_some_iff, Fin.forall_fin_one, start1_zero, window1_zero, ← word_eq_iff]
  have : ((ix1 s : S16.Idx) 0).val = s.val := rfl
  constructor <;> intro h <;> omega

/-- The sixteen entries the counts start from are zero … -/
private theorem zeros1_read (i : S16.Idx) :
    broadcastInDim S16 ![] bcast_S_S16 (constant (F := Ideal) S_ .f32 0x00000000#32) i = 0 := by
  unfold broadcastInDim
  exact Ideal.ofBits_zero_f32

/-- … and every update is one. -/
private theorem ones_read (j : S2000000.Idx) :
    broadcastInDim S2000000 ![] bcast_S_S2000000 (constant (F := Ideal) S_ .f32 0x3F800000#32) j = 1 := by
  unfold broadcastInDim
  exact ofBits_one_f32

/-- Entry `s` of ones scattered into sixteen zeros by the rows' group words. -/
theorem counts_scatter_apply (g : IVec S2000000 32) (s : Fin 16) :
    Host.scatterAdd (F := Ideal) scatter_S16_S2000000x1_S2000000_n_0_0_1
        (broadcastInDim S16 ![] bcast_S_S16 (constant (F := Ideal) S_ .f32 0x00000000#32))
        (broadcastInDim S2000000x1 ![0] bcast_S2000000_S2000000x1_0 g)
        (broadcastInDim S2000000 ![] bcast_S_S2000000 (constant (F := Ideal) S_ .f32 0x3F800000#32)) (ix1 s)
      = ∑ R : Fin 2000000, Cert.Ortho.hot (g (ix1 R)) s := by
  refine (scatterAdd_apply _ _ _ _ _).trans ?_
  rw [zeros1_read, zero_add]
  refine (sum_idx1 _).trans ?_
  refine Finset.sum_congr rfl fun R _ => ?_
  rw [ones_read, ← idx_read g R]
  unfold Cert.Ortho.hot
  exact if_congr (lands1 _ R s) rfl rfl

end Cert.ReferenceIdeal.Scatter

end
-- ==== Proof.RefRows.lean ====
/-
  The reference's rows scaled to unit length, read at an entry.

  The reference squares the array, sums each row from zero, takes the square root of the column of sums, floors it
  with the constant `ε`, spreads the floored lengths over the lanes and divides. Entry `(R, d)` of the quotient is
  therefore row `R`'s unit entry `d`.
-/
import proofs.«402068_j42434276885043_2_alg».proof.ReferenceIdeal
import proofs.«402068_j42434276885043_2_alg».proof.Proof.Spec
import Idealize.ShloMosaic.Lib.Pipeline.Value
import Idealize.ShloMosaic.Lib.ValueIdx
import Idealize.ShloMosaic.PureOps.Ideal.Laws

noncomputable section

namespace Cert.ReferenceIdeal.Rows

open Idealize.ShloMosaic Idealize.ShloMosaic.ValueIdx Cert.ReferenceIdeal Cert.ReferenceIdeal.Facts₀

variable [Cert.ReferenceIdeal.Facts]

/-- The reference's array of rows scaled to unit length. -/
def scaled (x : FVec Ideal S2000000x64 .f32) : FVec Ideal S2000000x64 .f32 :=
  Host.divf (F := Ideal) x (broadcastInDim S2000000x64 ![0, 1] bcast_S2000000x1_S2000000x64_0_1
    (maximumf (Host.sqrt (F := Ideal) (broadcastInDim S2000000x1 ![0] bcast_S2000000_S2000000x1_0
        (Host.reduceAdd (F := Ideal) (mulf x x) (constant (F := Ideal) S_ .f32 0x00000000#32) reducesTo_S2000000x64_S2000000_d1 h_S_)))
      (broadcastInDim S2000000x1 ![] bcast_S_S2000000x1 (constant (F := Ideal) S_ .f32 0x2B8CBCCC#32))))

/-- The sum of a row's squares: the host's sum from zero along the lanes, read at row `R`. -/
private theorem rowSum_apply (x : FVec Ideal S2000000x64 .f32) (R : Fin 2000000) :
    Host.reduceAdd (F := Ideal) (mulf x x) (constant (F := Ideal) S_ .f32 0x00000000#32)
        reducesTo_S2000000x64_S2000000_d1 h_S_ (ix1 R)
      = ∑ k : Fin 64, x (ix2 R k) * x (ix2 R k) := by
  simp only [Host.reduceAdd, Ideal.hostReduceAdd_def]
  rw [Ideal.hostReduceAdd_single reducesTo_S2000000x64_S2000000_d1 (by decide)]
  have h0 : (constant (F := Ideal) S_ .f32 0x00000000#32) (Shape.Idx.first h_S_) = (0 : EReal) :=
    Ideal.ofBits_zero_f32
  rw [h0, zero_add]
  refine Finset.sum_congr rfl fun k _ => ?_
  have hk : (by decide : S2000000x64.Reduces [1] S2000000).lift (ix1 R) k = ix2 R k :=
    funext fun a => Fin.ext (by match a with | ⟨0, _⟩ => rfl | ⟨1, _⟩ => rfl)
  rw [hk]
  rfl

/-- A column spread from the row axis, read at `(R, c)`, is the column's entry `R`. -/
private theorem bcastCol_apply {α : Type} (y : S2000000.Idx → α) (R : Fin 2000000) (c : Fin 1) :
    broadcastInDim S2000000x1 ![0] bcast_S2000000_S2000000x1_0 y (ix2 R c) = y (ix1 R) :=
  broadcastInDim_apply _ bcast_S2000000_S2000000x1_0 y (ix2 R c) (ix1 R) (fun a => match a with
    | ⟨0, _⟩ => by show R.val = if (2000000 : Nat) = 1 then 0 else R.val; rw [if_neg (by decide)])

/-- A scalar spread over the column, read anywhere, is the scalar. -/
private theorem bcastScalar_apply {α : Type} (y : S_.Idx → α) (i : S2000000x1.Idx) :
    broadcastInDim S2000000x1 ![] bcast_S_S2000000x1 y i = y ix0 :=
  broadcastInDim_apply _ bcast_S_S2000000x1 y i ix0 (fun a => a.elim0)

/-- A one-lane column spread over the sixty-four lanes, read at `(R, d)`, is the column's entry `(R, 0)`. -/
private theorem bcastLanes_apply {α : Type} (y : S2000000x1.Idx → α) (R : Fin 2000000) (d : Fin 64) :
    broadcastInDim S2000000x64 ![0, 1] bcast_S2000000x1_S2000000x64_0_1 y (ix2 R d) = y (ix2 R (0 : Fin 1)) :=
  broadcastInDim_apply _ bcast_S2000000x1_S2000000x64_0_1 y (ix2 R d) (ix2 R (0 : Fin 1)) (fun a => match a with
    | ⟨0, _⟩ => by show R.val = if (2000000 : Nat) = 1 then 0 else R.val; rw [if_neg (by decide)]
    | ⟨1, _⟩ => by show 0 = if (1 : Nat) = 1 then 0 else d.val; rw [if_pos rfl])

/-- The host's quotient is taken entry by entry. -/
private theorem divf_apply {s : Shape} (a b : FVec Ideal s .f32) (i : s.Idx) :
    Host.divf (F := Ideal) a b i = Ideal.div (a i) (b i) := rfl

/-- The larger of a square root and a second array, entry by entry. -/
private theorem maxSqrt_apply {s : Shape} (a b : FVec Ideal s .f32) (i : s.Idx) :
    maximumf (Host.sqrt (F := Ideal) a) b i = max (Ideal.sqrt (a i)) (b i) := rfl

/-- The floor's constant, read at its one index, is the floor. -/
private theorem floor_apply (i : S_.Idx) :
    constant (F := Ideal) S_ .f32 0x2B8CBCCC#32 i = Cert.Ortho.lenFloor := rfl

/-- Entry `(R, d)` of the scaled rows is row `R`'s unit entry `d`. -/
theorem scaled_apply (x : FVec Ideal S2000000x64 .f32) (R : Fin 2000000) (d : Fin 64) :
    scaled x (ix2 R d) = Cert.Ortho.unitEntry (fun k => x (ix2 R k)) d := by
  unfold scaled
  refine (divf_apply x _ (ix2 R d)).trans ?_
  unfold Cert.Ortho.unitEntry
  refine congrArg (Ideal.div (x (ix2 R d))) ?_
  refine (bcastLanes_apply _ R d).trans ?_
  refine (maxSqrt_apply _ _ _).trans ?_
  unfold Cert.Ortho.rowLen
  refine congrArg₂ max (congrArg Ideal.sqrt ?_) ?_
  · exact (bcastCol_apply _ R 0).trans (rowSum_apply x R)
  · exact (bcastScalar_apply _ _).trans (floor_apply _)

end Cert.ReferenceIdeal.Rows

end
-- ==== Proof.RefValue.lean ====
/-
  The reference's run, read as values.

  The reference scatters the rows scaled to unit length, and a vector of ones, into sixteen zero rows by the rows'
  group words, and finishes with the shared host chain. Entry `(s, d)` of the scattered rows is group `s`'s sum of
  column `d` over all rows; entry `s` of the scattered ones is the group's count.
-/
import proofs.«402068_j42434276885043_2_alg».proof.Proof.Gen.ReferenceIdeal.Run
import proofs.«402068_j42434276885043_2_alg».proof.Proof.ScatterRead
import proofs.«402068_j42434276885043_2_alg».proof.Proof.RefRows
import proofs.«402068_j42434276885043_2_alg».proof.Proof.Tail

noncomputable section

namespace Cert.ReferenceIdeal.RefValue

open Idealize.ShloMosaic Idealize.ShloMosaic.TcCoe Idealize.SL.Sem Idealize.ShloMosaic.ValueIdx
open Cert.ReferenceIdeal Cert.ReferenceIdeal.Facts₀ Cert.Ortho

variable (m : (ℓ : Loc nD τ sig) → Buf (Elt Ideal) ℓ) (ρ : Dev nD → PrngReg)

/-- The rows and the group words as plain functions of the row number. -/
def rowsOf (c : Dev nD) : Fin 2000000 → Fin 64 → EReal := fun R k => m ((c.tc : Thread nD τ).loc main_arg0) (ix2 R k)
def wordsOf (c : Dev nD) : Fin 2000000 → BitVec 32 := fun R => m ((c.tc : Thread nD τ).loc main_arg1) (ix1 R)

/-- The scaled rows scattered by group, and the ones scattered by group. -/
def groupSums (c : Dev nD) : FVec Ideal S16x64 .f32 :=
  Host.scatterAdd (F := Ideal) scatter_S16x64_S2000000x1_S2000000x64_1_0_0_1
    (broadcastInDim S16x64 ![] bcast_S_S16x64 (constant (F := Ideal) S_ .f32 0x00000000#32))
    (broadcastInDim S2000000x1 ![0] bcast_S2000000_S2000000x1_0 (m ((c.tc : Thread nD τ).loc main_arg1)))
    (Rows.scaled (m ((c.tc : Thread nD τ).loc main_arg0)))
def groupCounts (c : Dev nD) : FVec Ideal S16 .f32 :=
  Host.scatterAdd (F := Ideal) scatter_S16_S2000000x1_S2000000_n_0_0_1
    (broadcastInDim S16 ![] bcast_S_S16 (constant (F := Ideal) S_ .f32 0x00000000#32))
    (broadcastInDim S2000000x1 ![0] bcast_S2000000_S2000000x1_0 (m ((c.tc : Thread nD τ).loc main_arg1)))
    (broadcastInDim S2000000 ![] bcast_S_S2000000 (constant (F := Ideal) S_ .f32 0x3F800000#32))

theorem groupSums_apply (c : Dev nD) (s : Fin 16) (d : Fin 64) :
    groupSums m c (ix2 s d) = segSum (rowsOf m c) (wordsOf m c) s d := by
  unfold groupSums
  rw [Scatter.sums_scatter_apply]
  unfold segSum
  refine Finset.sum_congr rfl fun R _ => ?_
  rw [Rows.scaled_apply]
  rfl

theorem groupCounts_apply (c : Dev nD) (s : Fin 16) :
    groupCounts m c (ix1 s) = segCount (wordsOf m c) s := by
  unfold groupCounts
  rw [Scatter.counts_scatter_apply]
  rfl

/-- Every execution of the reference ends with the result at the shared chain of its group sums and counts. -/
theorem run : θ_run defs (onTc (τ := τ) (main (F := Ideal))) ⟨m, fun _ => 0, ρ⟩ fun r => ∀ c : Dev nD,
      r.2.mem ((c.tc : Thread nD τ).loc main_v31) = dist (groupSums m c) (groupCounts m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans rfl, (h c).2⟩) (Cert.ReferenceIdeal.Value.run (F := Ideal) m ρ)

end Cert.ReferenceIdeal.RefValue

end
-- ==== Proof.lean ====
/-
  Two million rows of sixty-four numbers fall into sixteen groups by an integer word per row. Each row is scaled to
  unit length (its length floored by a small constant), the scaled rows are summed group by group and the groups'
  sizes counted; from the sixteen sums and counts a 16 × 16 matrix of distances between the groups' mean directions
  is formed, with a zero diagonal.

  The kernel passes over the rows in two hundred blocks of ten thousand. For a block it multiplies the transposed
  matrix of one-hot weights — entry `(r, s)` is `1` when row `r`'s word is the word of group `s` — with the
  block's scaled rows, and adds the product, and the weights' column sums, into two accumulators it cleared at the
  first block. The reference scatters all scaled rows, and a vector of ones, into sixteen zero rows by the rows'
  words read as signed numbers, dropping a row whose word is no group number. A word that is no group number equals
  no one-hot column either, so both sum exactly the rows whose word is the group's.

  Over the extended reals addition is commutative and associative, `1 · v = v` and `0 · v = 0` for every `v`, so
  the sum over all rows is the sum over the blocks of the sums inside each block, and each program's group sum of a
  column is `∑ rows R, [word R = s] · unit (row R) d`, its count `∑ rows R, [word R = s]`. No finiteness of the
  inputs is needed for this. Both programs then apply the same host operations to the sums and counts, kept here
  as one function that is never opened.

  The three runs: the two kernel programs by their frames; the reference by its run read back. Nothing was
  rewritten between the kernel and its idealization, so that conjunct is `True`.
-/
import proofs.«402068_j42434276885043_2_alg».proof.Defs
import proofs.«402068_j42434276885043_2_alg».proof.Proof.Gen.Kernel
import proofs.«402068_j42434276885043_2_alg».proof.Proof.Gen.Kernel.Skeleton
import proofs.«402068_j42434276885043_2_alg».proof.Proof.Gen.Kernel.Launch
import proofs.«402068_j42434276885043_2_alg».proof.Proof.Gen.Kernel.Points
import proofs.«402068_j42434276885043_2_alg».proof.Proof.Gen.Kernel.Frame
import proofs.«402068_j42434276885043_2_alg».proof.Proof.Gen.KernelIdeal
import proofs.«402068_j42434276885043_2_alg».proof.Proof.Gen.KernelIdeal.Skeleton
import proofs.«402068_j42434276885043_2_alg».proof.Proof.Gen.KernelIdeal.Launch
import proofs.«402068_j42434276885043_2_alg».proof.Proof.Gen.KernelIdeal.Points
import proofs.«402068_j42434276885043_2_alg».proof.Proof.Gen.KernelIdeal.Frame
import proofs.«402068_j42434276885043_2_alg».proof.Proof.Gen.ReferenceIdeal
import proofs.«402068_j42434276885043_2_alg».proof.Proof.Gen.ReferenceIdeal.Run
import proofs.«402068_j42434276885043_2_alg».proof.Proof.Gen.ReferenceIdeal.Read
import proofs.«402068_j42434276885043_2_alg».proof.Proof.Gen.Pre_finite_inputs
import proofs.«402068_j42434276885043_2_alg».proof.Proof.KernelRun
import proofs.«402068_j42434276885043_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the shared chain of sixteen group sums and counts; from arrays that agree the sums and the
    counts agree entry by entry, each being the group's sum, or count, over all rows. -/
theorem algebraic : Cert.algebraic_KernelIdeal_ReferenceIdeal := by
  intro m ρ m' ρ' _ hagree
  refine ⟨fun c => Cert.Ortho.dist (Cert.KernelIdeal.Body.sumsAfter m c 199 Cert.KernelIdeal.Body.last_lt)
    (Cert.KernelIdeal.Body.lastCounts m c), Cert.KernelIdeal.Body.run m ρ, ?_⟩
  refine (θ_run Cert.ReferenceIdeal.defs _ _).mono (fun _ h c => ⟨(h c).1.trans ?_, (h c).2⟩)
    (Cert.ReferenceIdeal.RefValue.run m' ρ')
  refine congrArg₂ Cert.Ortho.dist (funext fun i => ?_) (funext fun i => ?_)
  · obtain ⟨s, d, rfl⟩ : ∃ (s : Fin 16) (d : Fin 64), i = ix2 s d := ⟨i 0, i 1, eq_ix2 i⟩
    rw [Cert.ReferenceIdeal.RefValue.groupSums_apply, Cert.KernelIdeal.Body.lastSums_apply]
    unfold Cert.ReferenceIdeal.RefValue.rowsOf Cert.ReferenceIdeal.RefValue.wordsOf
      Cert.KernelIdeal.Body.rowsOf Cert.KernelIdeal.Body.wordsOf
    rw [(hagree c).1, (hagree c).2]
  · obtain ⟨s, rfl⟩ : ∃ s : Fin 16, i = ix1 s := ⟨i 0, eq_ix1 i⟩
    rw [Cert.ReferenceIdeal.RefValue.groupCounts_apply, Cert.KernelIdeal.Body.lastCounts_apply]
    unfold Cert.ReferenceIdeal.RefValue.wordsOf Cert.KernelIdeal.Body.wordsOf
    rw [(hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
